-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x24E69595#32 ((126765058482001 / 1267650600228229401496703205376 : ℝ) : EReal)
  ∧ IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S200000x512 : Shape := ⟨2, ![200000, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_

variable [Facts]

def fn {F : FTy → Type} [FloatOps F] (main_arg0 : FVec F S64x512 .f32) (main_arg1 : FVec F S200000x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S200000x512 .f32 := Host.absf main_arg1
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  main_v8
-- ==== Kernel.lean ====
abbrev S64x512 : Shape := ⟨2, ![64, 512]⟩
abbrev S200000x512 : Shape := ⟨2, ![200000, 512]⟩
abbrev S_ : Shape := ⟨0, ![]⟩
abbrev S64 : Shape := ⟨1, ![64]⟩
abbrev S64x1 : Shape := ⟨2, ![64, 1]⟩
abbrev S2x64x512 : Shape := ⟨3, ![2, 64, 512]⟩
abbrev S2x64x1 : Shape := ⟨3, ![2, 64, 1]⟩
abbrev S5000x512 : Shape := ⟨2, ![5000, 512]⟩
abbrev S1x64x512 : Shape := ⟨3, ![1, 64, 512]⟩
abbrev S1x64x1 : Shape := ⟨3, ![1, 64, 1]⟩
abbrev S5000 : Shape := ⟨1, ![5000]⟩
abbrev S5000x1 : Shape := ⟨2, ![5000, 1]⟩
abbrev S1x5000 : Shape := ⟨2, ![1, 5000]⟩
abbrev S64x5000 : Shape := ⟨2, ![64, 5000]⟩

abbrev nBuf : Space → Nat
  | .hbm => 27
  | .vmem => 7
  | .smem => 0
  | _ => 0

abbrev bufTy : (tb : Table) → Fin (tcTables nBuf tb) → BufTy
  | .hbm, ⟨0, _⟩ => ⟨S64x512, .f32⟩
  | .hbm, ⟨1, _⟩ => ⟨S200000x512, .f32⟩
  | .hbm, ⟨2, _⟩ => ⟨S64x512, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x512, .f32⟩
  | .hbm, ⟨11, _⟩ => ⟨S64x512, .f32⟩
  | .hbm, ⟨12, _⟩ => ⟨S64x512, .bf16⟩
  | .hbm, ⟨13, _⟩ => ⟨S2x64x512, .f32⟩
  | .hbm, ⟨14, _⟩ => ⟨S2x64x1, .f32⟩
  | .hbm, ⟨15, _⟩ => ⟨S1x64x512, .f32⟩
  | .hbm, ⟨16, _⟩ => ⟨S64x512, .f32⟩
  | .hbm, ⟨17, _⟩ => ⟨S1x64x512, .f32⟩
  | .hbm, ⟨18, _⟩ => ⟨S64x512, .f32⟩
  | .hbm, ⟨19, _⟩ => ⟨S64x512, .f32⟩
  | .hbm, ⟨20, _⟩ => ⟨S1x64x1, .f32⟩
  | .hbm, ⟨21, _⟩ => ⟨S64x1, .f32⟩
  | .hbm, ⟨22, _⟩ => ⟨S1x64x1, .f32⟩
  | .hbm, ⟨23, _⟩ => ⟨S64x1, .f32⟩
  | .hbm, ⟨24, _⟩ => ⟨S64x1, .f32⟩
  | .hbm, ⟨25, _⟩ => ⟨S64x512, .f32⟩
  | .hbm, ⟨26, _⟩ => ⟨S64x512, .f32⟩
  | .local _ .vmem, ⟨0, _⟩ => ⟨S64x512, .bf16⟩
  | .local _ .vmem, ⟨1, _⟩ => ⟨S5000x512, .f32⟩
  | .local _ .vmem, ⟨2, _⟩ => ⟨S5000x512, .f32⟩
  | .local _ .vmem, ⟨3, _⟩ => ⟨S1x64x512, .f32⟩
  | .local _ .vmem, ⟨4, _⟩ => ⟨S1x64x512, .f32⟩
  | .local _ .vmem, ⟨5, _⟩ => ⟨S1x64x1, .f32⟩
  | .local _ .vmem, ⟨6, _⟩ => ⟨S1x64x1, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S5000x512_S5000x512_0_0 : ∀ a, (![0, 0] : Fin 2 → Nat) a + S5000x512.size a ≤ S5000x512.size a
  h_S5000x512 : 0 < S5000x512.numel
  reduces_S5000x512_S5000 : S5000x512.Reduces [1] S5000
  shapeCasts_S5000_S5000x1 : S5000.ShapeCasts S5000x1
  transposes_S5000x1_p1_0_S1x5000 : S5000x1.Transposes [1, 0] S1x5000
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x5000_S64x5000 : S1x5000.Broadcasts S64x5000
  reduces_S64x5000_S64 : S64x5000.Reduces [1] S64
  shapeCasts_S64_S64x1 : S64.ShapeCasts S64x1
  slices_S2x64x512_S1x64x512_0_0_0 : S2x64x512.Slices ![0, 0, 0] S1x64x512
  slices_S2x64x512_S1x64x512_1_0_0 : S2x64x512.Slices ![1, 0, 0] S1x64x512
  slices_S2x64x1_S1x64x1_0_0_0 : S2x64x1.Slices ![0, 0, 0] S1x64x1
  slices_S2x64x1_S1x64x1_1_0_0 : S2x64x1.Slices ![1, 0, 0] S1x64x1
  dot_S64x512_S5000x512_S64x5000_1_1_0_0_n_n_wf : DotDims.WF S64x512 S5000x512 S64x5000 [1] [1] [0] [0] [] []
  dot_S64x5000_S5000x512_S64x512_1_0_0_1_n_n_wf : DotDims.WF S64x5000 S5000x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .bf16 = 32 ∨ (Rect.block (s := S64x512) S64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S200000x512.size a
  hwx0_1 : ∀ i : grid0.Coords, EltTy.bits .f32 = 32 ∨ (Rect.block (s := S200000x512) S5000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S2x64x512.size a
  hwx0_2 : ∀ i : grid0.Coords, EltTy.bits .f32 = 32 ∨ (Rect.block (s := S2x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)

variable [Facts₀]

def dot_S64x512_S5000x512_S64x5000_1_1_0_0_n_n : DotDims S64x512 S5000x512 S64x5000 where
  lhsContracting := [1]
  rhsContracting := [1]
  lhsNonContracting := [0]
  rhsNonContracting := [0]
  lhsBatch := []
  rhsBatch := []
  wf := dot_S64x512_S5000x512_S64x5000_1_1_0_0_n_n_wf
def dot_S64x5000_S5000x512_S64x512_1_0_0_1_n_n : DotDims S64x5000 S5000x512 S64x512 where
  lhsContracting := [1]
  rhsContracting := [0]
  lhsNonContracting := [0]
  rhsNonContracting := [1]
  lhsBatch := []
  rhsBatch := []
  wf := dot_S64x5000_S5000x512_S64x512_1_0_0_1_n_n_wf

abbrev win0_0 : Pipeline.Window sig grid0 :=
  Pipeline.Window.ofSpec (Memref.whole main_v8) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S1x64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S1x64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512 : Shape := ⟨2, ![64, 512]⟩
abbrev S200000x512 : Shape := ⟨2, ![200000, 512]⟩
abbrev S_ : Shape := ⟨0, ![]⟩
abbrev S64 : Shape := ⟨1, ![64]⟩
abbrev S64x1 : Shape := ⟨2, ![64, 1]⟩
abbrev S200000 : Shape := ⟨1, ![200000]⟩
abbrev S200000x1 : Shape := ⟨2, ![200000, 1]⟩
abbrev S64x200000 : Shape := ⟨2, ![64, 200000]⟩

abbrev nBuf : Space → Nat
  | .hbm => 45
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S200000x512, .f32⟩
  | .hbm, ⟨2, _⟩ => ⟨S64x512, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x512, .f32⟩
  | .hbm, ⟨11, _⟩ => ⟨S64x512, .f32⟩
  | .hbm, ⟨12, _⟩ => ⟨S200000x512, .f32⟩
  | .hbm, ⟨13, _⟩ => ⟨S_, .f32⟩
  | .hbm, ⟨14, _⟩ => ⟨S200000, .f32⟩
  | .hbm, ⟨15, _⟩ => ⟨S200000x1, .f32⟩
  | .hbm, ⟨16, _⟩ => ⟨S200000x1, .f32⟩
  | .hbm, ⟨17, _⟩ => ⟨S_, .f32⟩
  | .hbm, ⟨18, _⟩ => ⟨S200000x1, .f32⟩
  | .hbm, ⟨19, _⟩ => ⟨S200000x1, .f32⟩
  | .hbm, ⟨20, _⟩ => ⟨S200000x512, .f32⟩
  | .hbm, ⟨21, _⟩ => ⟨S200000x512, .f32⟩
  | .hbm, ⟨22, _⟩ => ⟨S64x200000, .f32⟩
  | .hbm, ⟨23, _⟩ => ⟨S_, .f32⟩
  | .hbm, ⟨24, _⟩ => ⟨S64x200000, .f32⟩
  | .hbm, ⟨25, _⟩ => ⟨S64x200000, .f32⟩
  | .hbm, ⟨26, _⟩ => ⟨S64x200000, .f32⟩
  | .hbm, ⟨27, _⟩ => ⟨S_, .f32⟩
  | .hbm, ⟨28, _⟩ => ⟨S64x200000, .f32⟩
  | .hbm, ⟨29, _⟩ => ⟨S64x200000, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x200000, .f32⟩
  | .hbm, ⟨37, _⟩ => ⟨S64x200000, .f32⟩
  | .hbm, ⟨38, _⟩ => ⟨S64x200000, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x200000, .f32⟩
  | .hbm, ⟨43, _⟩ => ⟨S64x200000, .f32⟩
  | .hbm, ⟨44, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  reducesTo_S200000x512_S200000_d1 : S200000x512.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x512_0_1 : S200000x1.BroadcastsInDim S200000x512 (![0, 1] : Fin 2 → Fin S200000x512.rank)
  bcast_S_S64x200000 : S_.BroadcastsInDim S64x200000 (![] : Fin 0 → Fin S64x200000.rank)
  reducesTo_S64x200000_S64_d1 : S64x200000.ReducesTo [1] S64
  bcast_S_S64 : S_.BroadcastsInDim S64 (![] : Fin 0 → Fin S64.rank)
  bcast_S64x1_S64x200000_0_1 : S64x1.BroadcastsInDim S64x200000 (![0, 1] : Fin 2 → Fin S64x200000.rank)
  dot_S64x512_S200000x512_S64x200000_1_1_0_0_n_n_wf : DotDims.WF S64x512 S200000x512 S64x200000 [1] [1] [0] [0] [] []
  dot_S64x200000_S200000x512_S64x512_1_0_0_1_n_n_wf : DotDims.WF S64x200000 S200000x512 S64x512 [1] [0] [0] [1] [] []

variable [Facts₀]

def dot_S64x512_S200000x512_S64x200000_1_1_0_0_n_n : DotDims S64x512 S200000x512 S64x200000 where
  lhsContracting := [1]
  rhsContracting := [1]
  lhsNonContracting := [0]
  rhsNonContracting := [0]
  lhsBatch := []
  rhsBatch := []
  wf := dot_S64x512_S200000x512_S64x200000_1_1_0_0_n_n_wf
def dot_S64x200000_S200000x512_S64x512_1_0_0_1_n_n : DotDims S64x200000 S200000x512 S64x512 where
  lhsContracting := [1]
  rhsContracting := [0]
  lhsNonContracting := [0]
  rhsNonContracting := [1]
  lhsBatch := []
  rhsBatch := []
  wf := dot_S64x200000_S200000x512_S64x512_1_0_0_1_n_n_wf

class Facts : Prop extends Facts₀ where

variable [Facts]
-- ==== Proof.Spec.lean ====
/-
  The mathematics both programs compute, over the reals.

  A query row `q b` and an address row `a j` are each divided by their Euclidean norm clamped below at `eps`;
  `sim b j` is the inner product of the two normalised rows (a cosine similarity), `wt b j = exp (-(1 - sim b j) / tempr)`
  its softmin weight before normalisation, and `out b d` the weighted mean of the address rows' entry `d`,
  `(∑ j, wt b j * a j d) / ∑ j, wt b j`.

  The kernel reaches that value tile by tile: the 200000 address rows are cut into 40 tiles of 5000 consecutive rows,
  tiles 0–19 forming one partition and 20–39 the other; inside a tile it evaluates `tWt`, the same weight written with
  a reciprocal square root of the squared norm clamped at `eps * eps`, a clamp of the similarity at 1 and a product with
  `1 / tempr`, and adds the tile's weighted rows (`tNum`) and weights (`tDen`) into two running sums that restart at the
  first tile of each partition (`accNum`, `accDen`).

  Arrays of extended reals that hold real numbers are written `arr1 f`, `arr2 f`, `arr3 f`: the array whose entry at
  an index is the real `f` of the index's coordinates.
-/
import Idealize.ShloMosaic.PureOps.Ideal
import Idealize.ShloMosaic.Lib.ValueIdx

noncomputable section

open scoped BigOperators

namespace Cert.Spec

open Idealize.ShloMosaic Idealize.ShloMosaic.ValueIdx

/-! ## Real arrays as arrays of extended reals -/

/-- The rank-1 array of extended reals holding the reals `f`. -/
def arr1 {n0 : Nat} (f : Fin n0 → ℝ) : (⟨1, ![n0]⟩ : Shape).Idx → EReal :=
  fun i => ((f ⟨(i 0).val, (i 0).isLt⟩ : ℝ) : EReal)
/-- The rank-2 array of extended reals holding the reals `f`. -/
def arr2 {n0 n1 : Nat} (f : Fin n0 → Fin n1 → ℝ) : (⟨2, ![n0, n1]⟩ : Shape).Idx → EReal :=
  fun i => ((f ⟨(i 0).val, (i 0).isLt⟩ ⟨(i 1).val, (i 1).isLt⟩ : ℝ) : EReal)
/-- The rank-3 array of extended reals holding the reals `f`. -/
def arr3 {n0 n1 n2 : Nat} (f : Fin n0 → Fin n1 → Fin n2 → ℝ) : (⟨3, ![n0, n1, n2]⟩ : Shape).Idx → EReal :=
  fun i => ((f ⟨(i 0).val, (i 0).isLt⟩ ⟨(i 1).val, (i 1).isLt⟩ ⟨(i 2).val, (i 2).isLt⟩ : ℝ) : EReal)

theorem arr1_ix1 {n0 : Nat} (f : Fin n0 → ℝ) (x : Fin n0) : arr1 f (ix1 x) = ((f x : ℝ) : EReal) := rfl
theorem arr2_ix2 {n0 n1 : Nat} (f : Fin n0 → Fin n1 → ℝ) (x : Fin n0) (y : Fin n1) :
    arr2 f (ix2 x y) = ((f x y : ℝ) : EReal) := rfl
theorem arr3_ix3 {n0 n1 n2 : Nat} (f : Fin n0 → Fin n1 → Fin n2 → ℝ) (x : Fin n0) (y : Fin n1) (z : Fin n2) :
    arr3 f (ix3 x y z) = ((f x y z : ℝ) : EReal) := rfl

/-- Two rank-2 arrays are equal when they agree at every pair of coordinates. -/
theorem ext2 {n0 n1 : Nat} {α : Type} (u v : (⟨2, ![n0, n1]⟩ : Shape).Idx → α)
    (h : ∀ (x : Fin n0) (y : Fin n1), u (ix2 x y) = v (ix2 x y)) : u = v := by
  funext i; rw [eq_ix2 i]; exact h _ _
/-- Two rank-3 arrays are equal when they agree at every triple of coordinates. -/
theorem ext3 {n0 n1 n2 : Nat} {α : Type} (u v : (⟨3, ![n0, n1, n2]⟩ : Shape).Idx → α)
    (h : ∀ (x : Fin n0) (y : Fin n1) (z : Fin n2), u (ix3 x y z) = v (ix3 x y z)) : u = v := by
  funext i; rw [eq_ix3 i]; exact h _ _ _
/-- Two rank-1 arrays are equal when they agree at every coordinate. -/
theorem ext1 {n0 : Nat} {α : Type} (u v : (⟨1, ![n0]⟩ : Shape).Idx → α)
    (h : ∀ x : Fin n0, u (ix1 x) = v (ix1 x)) : u = v := by
  funext i; rw [eq_ix1 i]; exact h _

/-! ## The two constants -/

/-- The norm clamp: the binary fraction 11258999 / 2^50 (the single-precision neighbour of 1e-8). -/
def eps : ℝ := 11258999 / 1125899906842624
/-- The temperature: the binary fraction 13421773 / 2^27 (the single-precision neighbour of 0.1). -/
def tempr : ℝ := 13421773 / 134217728

theorem eps_pos : 0 < eps := by unfold eps; norm_num
theorem tempr_pos : 0 < tempr := by unfold tempr; norm_num

/-! ## The whole-array value -/

section
variable (q : Fin 64 → Fin 512 → ℝ) (a : Fin 200000 → Fin 512 → ℝ)

/-- A query row divided by its clamped norm. -/
def qn (b : Fin 64) (d : Fin 512) : ℝ := q b d / max (Real.sqrt (∑ k, q b k * q b k)) eps
/-- An address row's clamped norm. -/
def rown (j : Fin 200000) : ℝ := max (Real.sqrt (∑ k, a j k * a j k)) eps
/-- The cosine similarity of query row `b` and address row `j`. -/
def sim (b : Fin 64) (j : Fin 200000) : ℝ := ∑ k, qn q b k * (a j k / rown a j)
/-- The softmin exponent. -/
def expo (b : Fin 64) (j : Fin 200000) : ℝ := -(1 - sim q a b j) / tempr
/-- The unnormalised softmin weight. -/
def wt (b : Fin 64) (j : Fin 200000) : ℝ := Real.exp (expo q a b j)
/-- The retrieved row: the weighted mean of the address rows. -/
def out (b : Fin 64) (d : Fin 512) : ℝ := (∑ j, wt q a b j * a j d) / ∑ j, wt q a b j

/-- The same mean written as a softmax shifted by any per-row amount `M b`: weights `exp (expo - M)` divided by their sum. -/
def shifted (M : Fin 64 → ℝ) (b : Fin 64) (d : Fin 512) : ℝ :=
  ∑ j, (Real.exp (expo q a b j - M b) / ∑ k, Real.exp (expo q a b k - M b)) * a j d

/-! ## The tiled evaluation -/

/-- The address rows continued by zero rows past the last. -/
def aExt (j : ℕ) (d : Fin 512) : ℝ := if h : j < 200000 then a ⟨j, h⟩ d else 0
/-- Tile `T`: rows `5000 T` to `5000 T + 4999`. -/
def tile (T : ℕ) (r : Fin 5000) (d : Fin 512) : ℝ := aExt a (T * 5000 + r.val) d

end

/-- The weight as the kernel writes it inside a tile `ar`, for normalised queries `qnr`. -/
def tWt (qnr : Fin 64 → Fin 512 → ℝ) (ar : Fin 5000 → Fin 512 → ℝ) (b : Fin 64) (r : Fin 5000) : ℝ :=
  Real.exp ((min ((∑ k, qnr b k * ar r k) * (Real.sqrt (max (∑ k, ar r k * ar r k) (eps * eps)))⁻¹) 1 - 1) * (1 / tempr))
/-- A tile's weighted rows. -/
def tNum (qnr : Fin 64 → Fin 512 → ℝ) (ar : Fin 5000 → Fin 512 → ℝ) (b : Fin 64) (d : Fin 512) : ℝ :=
  ∑ r, tWt qnr ar b r * ar r d
/-- A tile's weights. -/
def tDen (qnr : Fin 64 → Fin 512 → ℝ) (ar : Fin 5000 → Fin 512 → ℝ) (b : Fin 64) : ℝ :=
  ∑ r, tWt qnr ar b r

section
variable (q : Fin 64 → Fin 512 → ℝ) (a : Fin 200000 → Fin 512 → ℝ)

/-- The running sum of weighted rows after tile `n`: restarted at the first tile of a partition (`n` a multiple of 20). -/
def accNum : ℕ → Fin 64 → Fin 512 → ℝ
  | 0 => tNum (qn q) (tile a 0)
  | n + 1 => if (n + 1) % 20 = 0 then tNum (qn q) (tile a (n + 1))
      else fun b d => accNum n b d + tNum (qn q) (tile a (n + 1)) b d
/-- The running sum of weights after tile `n`, restarted likewise. -/
def accDen : ℕ → Fin 64 → ℝ
  | 0 => tDen (qn q) (tile a 0)
  | n + 1 => if (n + 1) % 20 = 0 then tDen (qn q) (tile a (n + 1))
      else fun b => accDen n b + tDen (qn q) (tile a (n + 1)) b

end

end Cert.Spec

end
-- ==== Proof.IdealReal.lean ====
/-
  Extended-real arithmetic on real numbers: the ideal instance's operations applied to (coerced) reals give the
  (coerced) real operation, away from the corners; and the extended reals that the programs' single-precision
  bit patterns denote.
-/
import Idealize.ShloMosaic.PureOps.Ideal
import proofs.«421213_j39702677684486_3_alg».proof.Proof.Spec

noncomputable section

open scoped BigOperators
open Idealize.ShloMosaic Idealize.ShloMosaic.TcCoe Idealize.SL.Sem Idealize.ShloMosaic.ValueIdx

namespace Cert.IdealReal

open Cert.Spec

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert x t hx ih => rw [Finset.sum_insert hx, Finset.sum_insert hx, ih, EReal.coe_add]

/-- The quotient of two reals, the divisor not zero. -/
theorem div_coe (x y : ℝ) (hy : y ≠ 0) : Ideal.div (x : EReal) (y : EReal) = ((x / y : ℝ) : EReal) := by
  rw [Ideal.div_coe hy, ← EReal.coe_mul, one_div, div_eq_mul_inv]

/-- The square root of a non-negative real. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive real. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- The larger of two reals. -/
theorem max_coe (x y : ℝ) : max (x : EReal) (y : EReal) = ((max x y : ℝ) : EReal) :=
  (EReal.coe_strictMono.monotone.map_max).symm

/-- The smaller of two reals. -/
theorem min_coe (x y : ℝ) : min (x : EReal) (y : EReal) = ((min x y : ℝ) : EReal) :=
  (EReal.coe_strictMono.monotone.map_min).symm

/-- The pattern of `+0.0` denotes 0. -/
theorem ofBits_zero : Ideal.ofBits .f32 0x00000000#32 = ((0 : ℝ) : EReal) := by
  simp [Ideal.ofBits, Ideal.ieee]
/-- The pattern of `1.0` denotes 1. -/
theorem ofBits_one : Ideal.ofBits .f32 0x3F800000#32 = ((1 : ℝ) : EReal) := by
  simp [Ideal.ofBits, Ideal.ieee, -EReal.coe_mul]; norm_num
/-- The norm clamp's pattern denotes `eps`. -/
theorem ofBits_eps : Ideal.ofBits .f32 0x322BCC77#32 = ((eps : ℝ) : EReal) := by
  unfold eps
  simp [Ideal.ofBits, Ideal.ieee, -EReal.coe_mul]; norm_num
/-- The temperature's pattern denotes `tempr`. -/
theorem ofBits_tempr : Ideal.ofBits .f32 0x3DCCCCCD#32 = ((tempr : ℝ) : EReal) := by
  unfold tempr
  simp [Ideal.ofBits, Ideal.ieee, -EReal.coe_mul]; norm_num
/-- The pattern of `-inf` denotes the bottom element. -/
theorem ofBits_neg_inf : Ideal.ofBits .f32 0xFF800000#32 = (⊥ : EReal) := by
  simp [Ideal.ofBits, Ideal.ieee]
/-- The pattern of `+inf` denotes the top element. -/
theorem ofBits_inf : Ideal.ofBits .f32 0x7F800000#32 = (⊤ : EReal) := by
  simp [Ideal.ofBits, Ideal.ieee]

end Cert.IdealReal

end
-- ==== Proof.Finite.lean ====
/-
  Under the precondition every entry of the two arguments is a real number.
-/
import proofs.«421213_j39702677684486_3_alg».proof.Defs
import proofs.«421213_j39702677684486_3_alg».proof.Proof.Gen.KernelIdeal
import proofs.«421213_j39702677684486_3_alg».proof.Proof.Gen.Pre_finite_inputs
import proofs.«421213_j39702677684486_3_alg».proof.Proof.Spec
import proofs.«421213_j39702677684486_3_alg».proof.Proof.IdealReal
import Idealize.ShloMosaic.Lib.ReduceAll
import Idealize.ShloMosaic.PureOps.Ideal.Laws

noncomputable section

open scoped BigOperators
open Idealize.ShloMosaic Idealize.ShloMosaic.TcCoe Idealize.SL.Sem Idealize.ShloMosaic.ValueIdx

namespace Cert.Finite

open Cert.Spec Cert.IdealReal

/-- An extended real whose absolute value lies strictly below plus infinity is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The single-precision pattern of plus infinity denotes the top extended real. -/
private theorem ofBits_top : Ideal.ofBits .f32 0x7F800000#32 = (⊤ : EReal) := by
  simp [Ideal.ofBits, Ideal.ieee]

/-- The same, with the strict comparison against plus infinity given as a one-bit truth value. -/
private theorem real_of_cmp (x : EReal)
    (h : Ideal.cmp .olt (max x (-x)) (Ideal.ofBits .f32 0x7F800000#32) = 1#1) : ∃ r : ℝ, x = (r : EReal) := by
  rw [ofBits_top] at h
  refine real_of_abs_lt_top x ?_
  by_contra hn
  simp [Ideal.cmp, hn] at h

/-- The rank-0 shape has a single index. -/
private instance : Subsingleton Cert.Pre_finite_inputs.S_.Idx := ⟨fun a b => funext fun d => d.elim0⟩

/-- The precondition gives real arrays `q`, `a` that the two arguments hold. -/
theorem reals_of_pre (m : (ℓ : Loc Cert.KernelIdeal.nD Cert.KernelIdeal.τ Cert.KernelIdeal.sig) → Buf (Elt Ideal) ℓ)
    (h : Cert.Pre_KernelIdeal m) :
    ∃ (q : Fin 64 → Fin 512 → ℝ) (a : Fin 200000 → Fin 512 → ℝ),
      (∀ c : Dev Cert.KernelIdeal.nD, m ((c.tc : Thread Cert.KernelIdeal.nD Cert.KernelIdeal.τ).loc Cert.KernelIdeal.main_arg0) = arr2 q)
      ∧ (∀ c : Dev Cert.KernelIdeal.nD, m ((c.tc : Thread Cert.KernelIdeal.nD Cert.KernelIdeal.τ).loc Cert.KernelIdeal.main_arg1) = arr2 a) := by
  -- the precondition at the one device, read at the one index of its rank-0 result
  have h0 := congrFun (h 0) ValueIdx.ix0
  dsimp only [Cert.Pre_finite_inputs.fn] at h0
  -- a conjunction of two "for all entries, |entry| < +inf"
  obtain ⟨hq, ha⟩ := IntOp.andi_eq_one.1 h0
  have eq : ∀ i, ∃ r : ℝ, m (((0 : Dev Cert.KernelIdeal.nD).tc : Thread Cert.KernelIdeal.nD Cert.KernelIdeal.τ).loc Cert.KernelIdeal.main_arg0) i = (r : EReal) :=
    fun i => real_of_cmp _ (Host.reduce_andi_all _ _ _ _ _ hq i)
  have ea : ∀ i, ∃ r : ℝ, m (((0 : Dev Cert.KernelIdeal.nD).tc : Thread Cert.KernelIdeal.nD Cert.KernelIdeal.τ).loc Cert.KernelIdeal.main_arg1) i = (r : EReal) :=
    fun i => real_of_cmp _ (Host.reduce_andi_all _ _ _ _ _ ha i)
  -- choose the real behind every entry, and index it by coordinates
  choose fq hfq using eq
  choose fa hfa using ea
  refine ⟨fun b d => fq (ix2 b d), fun j d => fa (ix2 j d), fun c => ?_, fun c => ?_⟩
  · obtain rfl : c = 0 := Subsingleton.elim _ _
    refine Spec.ext2 _ _ fun x y => ?_
    rw [arr2_ix2]
    exact hfq (ix2 x y)
  · obtain rfl : c = 0 := Subsingleton.elim _ _
    refine Spec.ext2 _ _ fun x y => ?_
    rw [arr2_ix2]
    exact hfa (ix2 x y)

end Cert.Finite

end
-- ==== Proof.SpecLemmas.lean ====
/-
  Why the tiled evaluation and the shifted softmax are the weighted mean `out`.
-/
import proofs.«421213_j39702677684486_3_alg».proof.Proof.Spec

noncomputable section

open scoped BigOperators
open Idealize.ShloMosaic Idealize.ShloMosaic.TcCoe Idealize.SL.Sem Idealize.ShloMosaic.ValueIdx

namespace Cert.Spec

variable (q : Fin 64 → Fin 512 → ℝ) (a : Fin 200000 → Fin 512 → ℝ)

/-! ## Real-analysis steps over an arbitrary finite index type -/

section Aux
variable {ι : Type} [Fintype ι]

/-- The square root commutes with a clamp from below: `√(max s (e * e)) = max (√s) e` for `0 ≤ e`,
    because the square root is monotone and `√(e * e) = e`. -/
private theorem sqrt_max_sq (s e : ℝ) (he : 0 ≤ e) :
    Real.sqrt (max s (e * e)) = max (Real.sqrt s) e := by
  rw [Real.sqrt_monotone.map_max, Real.sqrt_mul_self he]

/-- A clamped norm is positive. -/
private theorem clampNorm_pos (x : ι → ℝ) (e : ℝ) (he : 0 < e) :
    0 < max (Real.sqrt (∑ k, x k * x k)) e :=
  lt_of_lt_of_le he (le_max_right _ _)

/-- A product of an inner product with a reciprocal distributes over the terms. -/
private theorem inner_mul_inv (u x : ι → ℝ) (c : ℝ) :
    (∑ k, u k * x k) * c⁻¹ = ∑ k, u k * (x k / c) := by
  rw [Finset.sum_mul]
  refine Finset.sum_congr rfl fun k _ => ?_
  rw [div_eq_mul_inv, mul_assoc]

/-- Cauchy–Schwarz: the inner product of two rows, each divided by its norm clamped below at `e > 0`, is at most 1. -/
private theorem cos_le_one (u x : ι → ℝ) (e : ℝ) (he : 0 < e) :
    ∑ k, (u k / max (Real.sqrt (∑ k, u k * u k)) e) * (x k / max (Real.sqrt (∑ k, x k * x k)) e) ≤ 1 := by
  have hu := clampNorm_pos u e he
  have hx := clampNorm_pos x e he
  have hcs : ∑ k, u k * x k ≤ Real.sqrt (∑ k, u k * u k) * Real.sqrt (∑ k, x k * x k) := by
    have h := Real.sum_mul_le_sqrt_mul_sqrt Finset.univ u x
    simpa only [sq] using h
  have hle : ∑ k, u k * x k
      ≤ max (Real.sqrt (∑ k, u k * u k)) e * max (Real.sqrt (∑ k, x k * x k)) e :=
    hcs.trans (mul_le_mul (le_max_left _ _) (le_max_left _ _) (Real.sqrt_nonneg _) hu.le)
  have hsum : ∑ k, (u k / max (Real.sqrt (∑ k, u k * u k)) e) * (x k / max (Real.sqrt (∑ k, x k * x k)) e)
      = (∑ k, u k * x k) / (max (Real.sqrt (∑ k, u k * u k)) e * max (Real.sqrt (∑ k, x k * x k)) e) := by
    rw [Finset.sum_div]
    refine Finset.sum_congr rfl fun k _ => ?_
    rw [div_mul_div_comm]
  rw [hsum, div_le_one (mul_pos hu hx)]
  exact hle

/-- The weight written with a reciprocal square root, a clamp at 1 and a product with `1 / t` is the weight
    written with the clamped norm and a quotient by `t`. -/
private theorem weight_core (u x : ι → ℝ) (e t : ℝ) (he : 0 < e) :
    Real.exp ((min ((∑ k, (u k / max (Real.sqrt (∑ k, u k * u k)) e) * x k)
        * (Real.sqrt (max (∑ k, x k * x k) (e * e)))⁻¹) 1 - 1) * (1 / t))
      = Real.exp (-(1 - ∑ k, (u k / max (Real.sqrt (∑ k, u k * u k)) e)
          * (x k / max (Real.sqrt (∑ k, x k * x k)) e)) / t) := by
  rw [sqrt_max_sq _ _ he.le, inner_mul_inv, min_eq_left (cos_le_one u x e he)]
  congr 1
  ring

end Aux

/-- Inside tile `T` the kernel's weight is the softmin weight of the tile's row: the reciprocal square root of the squared
    norm clamped at `eps * eps` is the reciprocal of the norm clamped at `eps`; the product with it distributes over the
    inner product; the clamp at 1 does nothing, because a cosine similarity of two rows of norm at most 1 is at most 1
    (Cauchy–Schwarz); and a product with `1 / tempr` is a quotient by `tempr`. -/
theorem tWt_eq_wt (T : ℕ) (hT : T < 40) (b : Fin 64) (r : Fin 5000) :
    tWt (qn q) (tile a T) b r = wt q a b ⟨T * 5000 + r.val, by have := r.isLt; omega⟩ := by
  have hlt : T * 5000 + r.val < 200000 := by have := r.isLt; omega
  have htile : ∀ k, tile a T r k = a ⟨T * 5000 + r.val, hlt⟩ k := fun k => by
    simp only [tile, aExt, dif_pos hlt]
  simp only [tWt, htile, wt, expo, sim, rown, qn]
  exact weight_core (q b) (a ⟨T * 5000 + r.val, hlt⟩) eps tempr eps_pos

/-- A softmax shifted by any amount is the unshifted weighted mean: the factor `exp (-M b)` cancels. -/
theorem shifted_eq_out (M : Fin 64 → ℝ) (b : Fin 64) (d : Fin 512) : shifted q a M b d = out q a b d := by
  have hne : (Finset.univ : Finset (Fin 200000)).Nonempty := ⟨⟨0, by norm_num⟩, Finset.mem_univ _⟩
  have hpos : 0 < ∑ j, Real.exp (expo q a b j) :=
    Finset.sum_pos (fun j _ => Real.exp_pos _) hne
  have hM : Real.exp (-M b) ≠ 0 := (Real.exp_pos _).ne'
  have hsplit : ∀ j, Real.exp (expo q a b j - M b) = Real.exp (expo q a b j) * Real.exp (-M b) := fun j => by
    rw [sub_eq_add_neg, Real.exp_add]
  simp only [shifted, out, wt, hsplit]
  rw [← Finset.sum_mul, Finset.sum_div]
  refine Finset.sum_congr rfl fun j _ => ?_
  rw [mul_div_mul_right _ _ hM, div_mul_eq_mul_div]

end Cert.Spec

end
-- ==== Proof.SpecSums.lean ====
/-
  The two partitions' running sums, added and divided, are the weighted mean `out`: the 40 tiles are the 200000 rows.
-/
import proofs.«421213_j39702677684486_3_alg».proof.Proof.Spec
import proofs.«421213_j39702677684486_3_alg».proof.Proof.SpecLemmas

noncomputable section

open scoped BigOperators
open Idealize.ShloMosaic Idealize.ShloMosaic.TcCoe Idealize.SL.Sem Idealize.ShloMosaic.ValueIdx

namespace Cert.Spec

variable (q : Fin 64 → Fin 512 → ℝ) (a : Fin 200000 → Fin 512 → ℝ)

/-! ## One step of the running sums -/

/-- Away from the first tile of a partition the running sum of weighted rows grows by the tile's sum. -/
private theorem accNum_step (n : ℕ) (h : (n + 1) % 20 ≠ 0) (b : Fin 64) (d : Fin 512) :
    accNum q a (n + 1) b d = accNum q a n b d + tNum (qn q) (tile a (n + 1)) b d := by
  rw [accNum, if_neg h]
/-- At the first tile of a partition the running sum of weighted rows is the tile's sum. -/
private theorem accNum_restart (n : ℕ) (h : (n + 1) % 20 = 0) :
    accNum q a (n + 1) = tNum (qn q) (tile a (n + 1)) := by
  rw [accNum, if_pos h]
private theorem accDen_step (n : ℕ) (h : (n + 1) % 20 ≠ 0) (b : Fin 64) :
    accDen q a (n + 1) b = accDen q a n b + tDen (qn q) (tile a (n + 1)) b := by
  rw [accDen, if_neg h]
private theorem accDen_restart (n : ℕ) (h : (n + 1) % 20 = 0) :
    accDen q a (n + 1) = tDen (qn q) (tile a (n + 1)) := by
  rw [accDen, if_pos h]

/-! ## The running sums as sums over the tiles of a partition -/

private theorem accNum_lo (k : ℕ) (hk : k < 20) (b : Fin 64) (d : Fin 512) :
    accNum q a k b d = ∑ T ∈ Finset.range (k + 1), tNum (qn q) (tile a T) b d := by
  induction k with
  | zero => simp [accNum]
  | succ k ih =>
    rw [accNum_step q a k (by omega), ih (by omega), Finset.sum_range_succ _ (k + 1)]
private theorem accNum_hi (k : ℕ) (hk : k < 20) (b : Fin 64) (d : Fin 512) :
    accNum q a (20 + k) b d = ∑ T ∈ Finset.range (k + 1), tNum (qn q) (tile a (20 + T)) b d := by
  induction k with
  | zero =>
    rw [show 20 + 0 = 19 + 1 from rfl, accNum_restart q a 19 (by norm_num)]
    simp
  | succ k ih =>
    rw [show 20 + (k + 1) = (20 + k) + 1 from rfl, accNum_step q a (20 + k) (by omega), ih (by omega),
      Finset.sum_range_succ _ (k + 1)]
    rfl
private theorem accDen_lo (k : ℕ) (hk : k < 20) (b : Fin 64) :
    accDen q a k b = ∑ T ∈ Finset.range (k + 1), tDen (qn q) (tile a T) b := by
  induction k with
  | zero => simp [accDen]
  | succ k ih =>
    rw [accDen_step q a k (by omega), ih (by omega), Finset.sum_range_succ _ (k + 1)]
private theorem accDen_hi (k : ℕ) (hk : k < 20) (b : Fin 64) :
    accDen q a (20 + k) b = ∑ T ∈ Finset.range (k + 1), tDen (qn q) (tile a (20 + T)) b := by
  induction k with
  | zero =>
    rw [show 20 + 0 = 19 + 1 from rfl, accDen_restart q a 19 (by norm_num)]
    simp
  | succ k ih =>
    rw [show 20 + (k + 1) = (20 + k) + 1 from rfl, accDen_step q a (20 + k) (by omega), ih (by omega),
      Finset.sum_range_succ _ (k + 1)]
    rfl

/-! ## Tiles of 5000 consecutive indices exhaust an initial segment -/

/-- Summing a sequence tile by tile over the first `n` tiles is summing it over the first `5000 n` indices. -/
private theorem sum_tiles (f : ℕ → ℝ) (n : ℕ) :
    ∑ T ∈ Finset.range n, ∑ r : Fin 5000, f (T * 5000 + r.val) = ∑ j ∈ Finset.range (n * 5000), f j := by
  induction n with
  | zero => simp
  | succ n ih =>
    rw [Finset.sum_range_succ, ih, Nat.succ_mul, Finset.sum_range_add,
      Fin.sum_univ_eq_sum_range (fun r => f (n * 5000 + r)) 5000]

/-- The two partitions' tile sums together are the sum over all 200000 indices. -/
private theorem sum_partitions (f : ℕ → ℝ) :
    (∑ T ∈ Finset.range 20, ∑ r : Fin 5000, f (T * 5000 + r.val))
      + (∑ T ∈ Finset.range 20, ∑ r : Fin 5000, f ((20 + T) * 5000 + r.val))
      = ∑ j : Fin 200000, f j.val := by
  rw [← Finset.sum_range_add (fun T => ∑ r : Fin 5000, f (T * 5000 + r.val)) 20 20, sum_tiles f (20 + 20),
    Fin.sum_univ_eq_sum_range f 200000]

/-! ## A tile's sums in terms of the weights -/

/-- The weighted entry of row `j`, continued by zero past the last row. -/
private def numExt (b : Fin 64) (d : Fin 512) (j : ℕ) : ℝ :=
  if h : j < 200000 then wt q a b ⟨j, h⟩ * a ⟨j, h⟩ d else 0
/-- The weight of row `j`, continued by zero past the last row. -/
private def denExt (b : Fin 64) (j : ℕ) : ℝ :=
  if h : j < 200000 then wt q a b ⟨j, h⟩ else 0

private theorem tNum_eq (T : ℕ) (hT : T < 40) (b : Fin 64) (d : Fin 512) :
    tNum (qn q) (tile a T) b d = ∑ r : Fin 5000, numExt q a b d (T * 5000 + r.val) := by
  unfold tNum
  refine Finset.sum_congr rfl (fun r _ => ?_)
  have hr := r.isLt
  have hj : T * 5000 + r.val < 200000 := by omega
  rw [tWt_eq_wt q a T hT b r, numExt, dif_pos hj, tile, aExt, dif_pos hj]
private theorem tDen_eq (T : ℕ) (hT : T < 40) (b : Fin 64) :
    tDen (qn q) (tile a T) b = ∑ r : Fin 5000, denExt q a b (T * 5000 + r.val) := by
  unfold tDen
  refine Finset.sum_congr rfl (fun r _ => ?_)
  have hr := r.isLt
  have hj : T * 5000 + r.val < 200000 := by omega
  rw [tWt_eq_wt q a T hT b r, denExt, dif_pos hj]

/-! ## The totals -/

/-- The running sums after the last tile of each partition (tiles 19 and 39), added, are the sums over all rows. -/
theorem accNum_total (b : Fin 64) (d : Fin 512) : accNum q a 19 b d + accNum q a 39 b d = ∑ j, wt q a b j * a j d := by
  rw [accNum_lo q a 19 (by norm_num), show (39 : ℕ) = 20 + 19 from rfl, accNum_hi q a 19 (by norm_num)]
  rw [Finset.sum_congr rfl (fun T hT => tNum_eq q a T (by have := Finset.mem_range.mp hT; omega) b d),
    Finset.sum_congr rfl (fun T hT => tNum_eq q a (20 + T) (by have := Finset.mem_range.mp hT; omega) b d)]
  rw [sum_partitions (numExt q a b d)]
  refine Finset.sum_congr rfl (fun j _ => ?_)
  rw [numExt, dif_pos j.isLt]
theorem accDen_total (b : Fin 64) : accDen q a 19 b + accDen q a 39 b = ∑ j, wt q a b j := by
  rw [accDen_lo q a 19 (by norm_num), show (39 : ℕ) = 20 + 19 from rfl, accDen_hi q a 19 (by norm_num)]
  rw [Finset.sum_congr rfl (fun T hT => tDen_eq q a T (by have := Finset.mem_range.mp hT; omega) b),
    Finset.sum_congr rfl (fun T hT => tDen_eq q a (20 + T) (by have := Finset.mem_range.mp hT; omega) b)]
  rw [sum_partitions (denExt q a b)]
  refine Finset.sum_congr rfl (fun j _ => ?_)
  rw [denExt, dif_pos j.isLt]
/-- The sum of the weights is positive, so the quotient is the real quotient. -/
theorem den_pos (b : Fin 64) : 0 < ∑ j, wt q a b j := by
  refine Finset.sum_pos (fun j _ => Real.exp_pos _) ⟨⟨0, by norm_num⟩, Finset.mem_univ _⟩
theorem acc_quotient (b : Fin 64) (d : Fin 512) :
    (accNum q a 19 b d + accNum q a 39 b d) / (accDen q a 19 b + accDen q a 39 b) = out q a b d := by
  rw [accNum_total, accDen_total]; rfl

end Cert.Spec

end
-- ==== Proof.KernelPieces.lean ====
/-
  What each control case of the kernel body leaves in its two output buffers, as the body's own arithmetic.

  At the first tile of a partition (case A) the body stores zeros into both buffers, reads them back, and stores the
  tile's update of those zeros; at the other tiles (case B) it stores the tile's update of what the buffers held.
-/
import proofs.«421213_j39702677684486_3_alg».proof.Proof.Gen.KernelIdeal.Frame
import Idealize.ShloMosaic.Lib.Tactic
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F] [Named F]

/-- The zero offset of a rank-2 block, written as a literal vector, is the constant zero. -/
private theorem hz2 : (![0, 0] : Fin 2 → Nat) = fun _ => 0 := funext fun a => by fin_cases a <;> rfl
/-- The zero offset of a rank-3 block, written as a literal vector, is the constant zero. -/
private theorem hz3 : (![0, 0, 0] : Fin 3 → Nat) = fun _ => 0 := funext fun a => by fin_cases a <;> rfl

/-- Case A, the weighted-rows buffer: the update of the zero block. -/
theorem out_A_2 (c : Dev nD) (i : grid0.Coords) (arg2 : Memref sig .tc .vmem S64x512 .bf16) (harg2 : arg2.IsWhole) (arg3 : Memref sig .tc .vmem S5000x512 .f32) (harg3 : arg3.IsWhole) (arg4 : Memref sig .tc .vmem S1x64x512 .f32) (harg4 : arg4.IsWhole) (arg5 : Memref sig .tc .vmem S1x64x1 .f32) (harg5 : arg5.IsWhole) (hc0 : cond0_0 i)
    (x0 : Vec F S64x512 .bf16) (x1 : Vec F S5000x512 .f32) :
    out0_A_2 c i arg2 harg2 arg3 harg3 arg4 harg4 arg5 harg5 hc0 x0 x1 = k0_pay1 (k0_pay4 x1) (k0_pay7 x1 x0) (k0_pay2 (F := F)) := by
  -- two stores, the later covering the whole block: the block is the later store's value, which reads the zero block back
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x64x512) hz3]
  simp only [View.readAt_eq_ld, harg2.read_unread, harg3.read_unread, harg4.read_unread, harg5.read_unread,
    View.ld_unit_zero (S := S64x512) hz2, View.ld_unit_zero (S := S5000x512) hz2,
    View.ld_unit_zero (S := S1x64x512) hz3, View.ld_unit_zero (S := S1x64x1) hz3,
    View.readCov_unit_zero (S := S1x64x512) _ hz3, View.readCov_unit_zero (S := S1x64x1) _ hz3]

/-- Case A, the weights buffer: the update of the zero block. -/
theorem out_A_3 (c : Dev nD) (i : grid0.Coords) (arg2 : Memref sig .tc .vmem S64x512 .bf16) (harg2 : arg2.IsWhole) (arg3 : Memref sig .tc .vmem S5000x512 .f32) (harg3 : arg3.IsWhole) (arg4 : Memref sig .tc .vmem S1x64x512 .f32) (harg4 : arg4.IsWhole) (arg5 : Memref sig .tc .vmem S1x64x1 .f32) (harg5 : arg5.IsWhole) (hc0 : cond0_0 i)
    (x0 : Vec F S64x512 .bf16) (x1 : Vec F S5000x512 .f32) :
    out0_A_3 c i arg2 harg2 arg3 harg3 arg4 harg4 arg5 harg5 hc0 x0 x1 = k0_pay6 x1 x0 (k0_pay3 (F := F)) := by
  -- two stores, the later covering the whole block: the block is the later store's value, which reads the zero block back
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x64x1) hz3]
  simp only [View.readAt_eq_ld, harg2.read_unread, harg3.read_unread, harg4.read_unread, harg5.read_unread,
    View.ld_unit_zero (S := S64x512) hz2, View.ld_unit_zero (S := S5000x512) hz2,
    View.ld_unit_zero (S := S1x64x512) hz3, View.ld_unit_zero (S := S1x64x1) hz3,
    View.readCov_unit_zero (S := S1x64x512) _ hz3, View.readCov_unit_zero (S := S1x64x1) _ hz3]

/-- Case B, the weighted-rows buffer: the update of what it held. -/
theorem out_B_2 (c : Dev nD) (i : grid0.Coords) (arg2 : Memref sig .tc .vmem S64x512 .bf16) (harg2 : arg2.IsWhole) (arg3 : Memref sig .tc .vmem S5000x512 .f32) (harg3 : arg3.IsWhole) (arg4 : Memref sig .tc .vmem S1x64x512 .f32) (harg4 : arg4.IsWhole) (arg5 : Memref sig .tc .vmem S1x64x1 .f32) (harg5 : arg5.IsWhole) (hc0 : ¬cond0_0 i)
    (x0 : Vec F S64x512 .bf16) (x1 : Vec F S5000x512 .f32) (xo2 : Vec F S1x64x512 .f32) (xo3 : Vec F S1x64x1 .f32) :
    out0_B_2 c i arg2 harg2 arg3 harg3 arg4 harg4 arg5 harg5 hc0 x0 x1 xo2 xo3 = k0_pay1 (k0_pay4 x1) (k0_pay7 x1 x0) xo2 := by
  -- one store covers the whole block: the block is that store's value, whose reads are of whole buffers
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero (S := S1x64x512) hz3]
  simp only [View.readAt_eq_ld, harg2.read_unread, harg3.read_unread, harg4.read_unread, harg5.read_unread,
    View.ld_unit_zero (S := S64x512) hz2, View.ld_unit_zero (S := S5000x512) hz2,
    View.ld_unit_zero (S := S1x64x512) hz3, View.ld_unit_zero (S := S1x64x1) hz3,
    View.readCov_unit_zero (S := S1x64x512) _ hz3, View.readCov_unit_zero (S := S1x64x1) _ hz3]

/-- Case B, the weights buffer: the update of what it held. -/
theorem out_B_3 (c : Dev nD) (i : grid0.Coords) (arg2 : Memref sig .tc .vmem S64x512 .bf16) (harg2 : arg2.IsWhole) (arg3 : Memref sig .tc .vmem S5000x512 .f32) (harg3 : arg3.IsWhole) (arg4 : Memref sig .tc .vmem S1x64x512 .f32) (harg4 : arg4.IsWhole) (arg5 : Memref sig .tc .vmem S1x64x1 .f32) (harg5 : arg5.IsWhole) (hc0 : ¬cond0_0 i)
    (x0 : Vec F S64x512 .bf16) (x1 : Vec F S5000x512 .f32) (xo2 : Vec F S1x64x512 .f32) (xo3 : Vec F S1x64x1 .f32) :
    out0_B_3 c i arg2 harg2 arg3 harg3 arg4 harg4 arg5 harg5 hc0 x0 x1 xo2 xo3 = k0_pay6 x1 x0 xo3 := by
  -- one store covers the whole block: the block is that store's value, whose reads are of whole buffers
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero (S := S1x64x1) hz3]
  simp only [View.readAt_eq_ld, harg2.read_unread, harg3.read_unread, harg4.read_unread, harg5.read_unread,
    View.ld_unit_zero (S := S64x512) hz2, View.ld_unit_zero (S := S5000x512) hz2,
    View.ld_unit_zero (S := S1x64x512) hz3, View.ld_unit_zero (S := S1x64x1) hz3,
    View.readCov_unit_zero (S := S1x64x512) _ hz3, View.readCov_unit_zero (S := S1x64x1) _ hz3]

end Cert.KernelIdeal.Pieces

end
-- ==== Proof.KernelPayload.lean ====
/-
  The kernel body's arithmetic on real numbers: for a tile `ar` of address rows and normalised queries `qnr`, the
  weights are `tWt qnr ar`, the weights buffer gains their row sums `tDen`, the weighted-rows buffer gains `tNum`.
-/
import proofs.«421213_j39702677684486_3_alg».proof.Proof.Gen.KernelIdeal.Skeleton
import proofs.«421213_j39702677684486_3_alg».proof.Proof.Spec
import proofs.«421213_j39702677684486_3_alg».proof.Proof.IdealReal
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Payload

open Cert.KernelIdeal Cert.KernelIdeal.Gen Cert.Spec Cert.IdealReal

/-- The named square of the norm clamp denotes `eps * eps`. -/
theorem named_eps_squared :
    Named.named (F := Ideal) Cert.KernelIdeal.κ "eps_squared" (φ := .f32) 0x24E69595#32 = ((eps * eps : ℝ) : EReal) := by
  refine (IdealRules.named_const.ideal_named_scalar _ _ _ _ rfl).trans ?_
  refine congrArg (fun x : ℝ => (x : EReal)) ?_
  unfold eps; norm_num
/-- The named reciprocal of the temperature denotes `1 / tempr`. -/
theorem named_inv_temperature :
    Named.named (F := Ideal) Cert.KernelIdeal.κ "inv_temperature" (φ := .f32) 0x41200000#32 = ((1 / tempr : ℝ) : EReal) := by
  refine (IdealRules.named_const.ideal_named_scalar _ _ _ _ rfl).trans ?_
  refine congrArg (fun x : ℝ => (x : EReal)) ?_
  unfold tempr; norm_num

/-! ## Layout operations, row sums and the two products, read at coordinates -/

/-- A vector cast to a one-column matrix reads, at `(i, u)`, the vector at `i`. -/
private theorem cast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along each row of a 5000 × 512 array. -/
private theorem rowsum512_apply (v : FVec Ideal S5000x512 .f32) (r : Fin 5000) :
    multiReduction (F := Ideal) .add [1] S5000 v 0x00000000#32 reduces_S5000x512_S5000 (.inl rfl) rfl (ix1 r)
      = ∑ k : Fin 512, v (ix2 r k) := by
  refine (Ideal.multiReduction_add_single v 0x00000000#32 reduces_S5000x512_S5000 (.inl rfl) rfl (ix1 r)).trans ?_
  refine Finset.sum_congr rfl fun k _ => congrArg v ?_
  funext a; match a with | ⟨0, _⟩ => rfl | ⟨1, _⟩ => rfl

/-- The sum along each row of a 64 × 5000 array. -/
private theorem rowsum5000_apply (v : FVec Ideal S64x5000 .f32) (b : Fin 64) :
    multiReduction (F := Ideal) .add [1] S64 v 0x00000000#32 reduces_S64x5000_S64 (.inl rfl) rfl (ix1 b)
      = ∑ r : Fin 5000, v (ix2 b r) := by
  refine (Ideal.multiReduction_add_single v 0x00000000#32 reduces_S64x5000_S64 (.inl rfl) rfl (ix1 b)).trans ?_
  refine Finset.sum_congr rfl fun k _ => congrArg v ?_
  funext a; match a with | ⟨0, _⟩ => rfl | ⟨1, _⟩ => rfl

/-! The first product contracts the second axis of both operands. -/

private theorem lhsA_0 (i : S64x5000.Idx) (q : dot_S64x512_S5000x512_S64x5000_1_1_0_0_n_n.contr.Idx) :
    (dot_S64x512_S5000x512_S64x5000_1_1_0_0_n_n.lhsIdx i q 0).val = (i 0).val := by
  unfold DotDims.lhsIdx
  rw [dif_neg (show ¬(0 : Fin S64x512.rank) ∈ dot_S64x512_S5000x512_S64x5000_1_1_0_0_n_n.lhsBatch by decide), dif_pos (show (0 : Fin S64x512.rank) ∈ dot_S64x512_S5000x512_S64x5000_1_1_0_0_n_n.lhsNonContracting by decide)]
  rfl
private theorem lhsA_1 (i : S64x5000.Idx) (q : dot_S64x512_S5000x512_S64x5000_1_1_0_0_n_n.contr.Idx) :
    (dot_S64x512_S5000x512_S64x5000_1_1_0_0_n_n.lhsIdx i q 1).val = (q ⟨0, by decide⟩).val :=
  dot_S64x512_S5000x512_S64x5000_1_1_0_0_n_n.lhsIdx_val_of_single rfl i q
private theorem rhsA_0 (i : S64x5000.Idx) (q : dot_S64x512_S5000x512_S64x5000_1_1_0_0_n_n.contr.Idx) :
    (dot_S64x512_S5000x512_S64x5000_1_1_0_0_n_n.rhsIdx i q 0).val = (i 1).val := by
  unfold DotDims.rhsIdx
  rw [dif_neg (show ¬(0 : Fin S5000x512.rank) ∈ dot_S64x512_S5000x512_S64x5000_1_1_0_0_n_n.rhsBatch by decide), dif_pos (show (0 : Fin S5000x512.rank) ∈ dot_S64x512_S5000x512_S64x5000_1_1_0_0_n_n.rhsNonContracting by decide)]
  rfl
private theorem rhsA_1 (i : S64x5000.Idx) (q : dot_S64x512_S5000x512_S64x5000_1_1_0_0_n_n.contr.Idx) :
    (dot_S64x512_S5000x512_S64x5000_1_1_0_0_n_n.rhsIdx i q 1).val = (q ⟨0, by decide⟩).val :=
  dot_S64x512_S5000x512_S64x5000_1_1_0_0_n_n.rhsIdx_val_of_single rfl i q

/-- The first product into the zero array, at `(b, r)`: the inner product of row `b` of the left operand and row `r` of the right. -/
private theorem matmulA_apply (l : FVec Ideal S64x512 .bf16) (rr : FVec Ideal S5000x512 .bf16) (b : Fin 64) (r : Fin 5000) :
    matmul dot_S64x512_S5000x512_S64x5000_1_1_0_0_n_n none l rr (constant (F := Ideal) S64x5000 .f32 0x00000000#32) (ix2 b r)
      = ∑ k : Fin 512, l (ix2 b k) * rr (ix2 r k) := by
  simp only [matmul]
  rw [Ideal.matmul_constant_zero_apply, ← Equiv.sum_comp (ValueIdx.contrEquiv1 dot_S64x512_S5000x512_S64x5000_1_1_0_0_n_n 512 rfl rfl).symm]
  refine Finset.sum_congr rfl fun k _ => ?_
  have hk := ValueIdx.contrEquiv1_symm_val dot_S64x512_S5000x512_S64x5000_1_1_0_0_n_n 512 rfl rfl k
  have el : dot_S64x512_S5000x512_S64x5000_1_1_0_0_n_n.lhsIdx (ix2 b r) ((ValueIdx.contrEquiv1 dot_S64x512_S5000x512_S64x5000_1_1_0_0_n_n 512 rfl rfl).symm k) = ix2 b k := funext fun a => Fin.ext (by
    match a with
    | ⟨0, _⟩ => exact lhsA_0 _ _
    | ⟨1, _⟩ => exact (lhsA_1 _ _).trans hk)
  have er : dot_S64x512_S5000x512_S64x5000_1_1_0_0_n_n.rhsIdx (ix2 b r) ((ValueIdx.contrEquiv1 dot_S64x512_S5000x512_S64x5000_1_1_0_0_n_n 512 rfl rfl).symm k) = ix2 r k := funext fun a => Fin.ext (by
    match a with
    | ⟨0, _⟩ => exact rhsA_0 _ _
    | ⟨1, _⟩ => exact (rhsA_1 _ _).trans hk)
  rw [el, er]

/-! The second product contracts the second axis of the left operand with the first of the right. -/

private theorem lhsB_0 (i : S64x512.Idx) (q : dot_S64x5000_S5000x512_S64x512_1_0_0_1_n_n.contr.Idx) :
    (dot_S64x5000_S5000x512_S64x512_1_0_0_1_n_n.lhsIdx i q 0).val = (i 0).val := by
  unfold DotDims.lhsIdx
  rw [dif_neg (show ¬(0 : Fin S64x5000.rank) ∈ dot_S64x5000_S5000x512_S64x512_1_0_0_1_n_n.lhsBatch by decide), dif_pos (show (0 : Fin S64x5000.rank) ∈ dot_S64x5000_S5000x512_S64x512_1_0_0_1_n_n.lhsNonContracting by decide)]
  rfl
private theorem lhsB_1 (i : S64x512.Idx) (q : dot_S64x5000_S5000x512_S64x512_1_0_0_1_n_n.contr.Idx) :
    (dot_S64x5000_S5000x512_S64x512_1_0_0_1_n_n.lhsIdx i q 1).val = (q ⟨0, by decide⟩).val :=
  dot_S64x5000_S5000x512_S64x512_1_0_0_1_n_n.lhsIdx_val_of_single rfl i q
private theorem rhsB_0 (i : S64x512.Idx) (q : dot_S64x5000_S5000x512_S64x512_1_0_0_1_n_n.contr.Idx) :
    (dot_S64x5000_S5000x512_S64x512_1_0_0_1_n_n.rhsIdx i q 0).val = (q ⟨0, by decide⟩).val :=
  dot_S64x5000_S5000x512_S64x512_1_0_0_1_n_n.rhsIdx_val_of_single rfl i q
private theorem rhsB_1 (i : S64x512.Idx) (q : dot_S64x5000_S5000x512_S64x512_1_0_0_1_n_n.contr.Idx) :
    (dot_S64x5000_S5000x512_S64x512_1_0_0_1_n_n.rhsIdx i q 1).val = (i 1).val := by
  unfold DotDims.rhsIdx
  rw [dif_neg (show ¬(1 : Fin S5000x512.rank) ∈ dot_S64x5000_S5000x512_S64x512_1_0_0_1_n_n.rhsBatch by decide), dif_pos (show (1 : Fin S5000x512.rank) ∈ dot_S64x5000_S5000x512_S64x512_1_0_0_1_n_n.rhsNonContracting by decide)]
  rfl

/-- The second product into the zero array, at `(b, d)`: the sum over the rows `r` of the left operand at `(b, r)` times the right at `(r, d)`. -/
private theorem matmulB_apply (l : FVec Ideal S64x5000 .bf16) (rr : FVec Ideal S5000x512 .bf16) (b : Fin 64) (d : Fin 512) :
    matmul dot_S64x5000_S5000x512_S64x512_1_0_0_1_n_n none l rr (constant (F := Ideal) S64x512 .f32 0x00000000#32) (ix2 b d)
      = ∑ r : Fin 5000, l (ix2 b r) * rr (ix2 r d) := by
  simp only [matmul]
  rw [Ideal.matmul_constant_zero_apply, ← Equiv.sum_comp (ValueIdx.contrEquiv1 dot_S64x5000_S5000x512_S64x512_1_0_0_1_n_n 5000 rfl rfl).symm]
  refine Finset.sum_congr rfl fun k _ => ?_
  have hk := ValueIdx.contrEquiv1_symm_val dot_S64x5000_S5000x512_S64x512_1_0_0_1_n_n 5000 rfl rfl k
  have el : dot_S64x5000_S5000x512_S64x512_1_0_0_1_n_n.lhsIdx (ix2 b d) ((ValueIdx.contrEquiv1 dot_S64x5000_S5000x512_S64x512_1_0_0_1_n_n 5000 rfl rfl).symm k) = ix2 b k := funext fun a => Fin.ext (by
    match a with
    | ⟨0, _⟩ => exact lhsB_0 _ _
    | ⟨1, _⟩ => exact (lhsB_1 _ _).trans hk)
  have er : dot_S64x5000_S5000x512_S64x512_1_0_0_1_n_n.rhsIdx (ix2 b d) ((ValueIdx.contrEquiv1 dot_S64x5000_S5000x512_S64x512_1_0_0_1_n_n 5000 rfl rfl).symm k) = ix2 k d := funext fun a => Fin.ext (by
    match a with
    | ⟨0, _⟩ => exact (rhsB_0 _ _).trans hk
    | ⟨1, _⟩ => exact rhsB_1 _ _)
  rw [el, er]

/-! ## The weights -/

/-- The reciprocal norm column, spread along the rows: at `(b, r)` the reciprocal square root of row `r`'s clamped sum of squares. -/
private theorem rnorm_apply (v3 : FVec Ideal S5000x512 .f32) (c : Ideal .f32) (b : Fin 64) (r : Fin 5000) :
    broadcastTo S64x5000
        (transpose S1x5000 [1, 0]
          (rsqrt (maximumf
            (shapeCast S5000x1
              (multiReduction (F := Ideal) .add [1] S5000 (mulf v3 v3) 0x00000000#32 reduces_S5000x512_S5000 (.inl rfl) rfl)
              shapeCasts_S5000_S5000x1)
            (broadcast S5000x1 c)))
          transposes_S5000x1_p1_0_S1x5000)
        broadcasts_S1x5000_S64x5000 (ix2 b r)
      = Ideal.rsqrt (max (∑ k : Fin 512, v3 (ix2 r k) * v3 (ix2 r k)) c) := by
  refine (broadcastTo_1b_ab_apply _ _ b r).trans ?_
  refine (transpose_ix2_apply _ _ (0 : Fin 1) r).trans ?_
  refine congrArg (fun x => Ideal.rsqrt (max x c)) ?_
  refine (cast_col _ _ r (0 : Fin 1)).trans ?_
  exact rowsum512_apply _ r

/-- The pointwise tail of the weight: clamp at one, subtract one, scale, exponentiate. -/
private theorem tail_eq (m n : FVec Ideal S64x5000 .f32) (one c : Ideal .f32) (i : S64x5000.Idx) (x y t : ℝ)
    (hm : m i = ((x : ℝ) : EReal)) (hn : n i = ((y : ℝ) : EReal)) (h1 : one = ((1 : ℝ) : EReal)) (hc : c = ((t : ℝ) : EReal)) :
    exp (mulf (subf (minimumf (mulf m n) (broadcast S64x5000 one)) (broadcast S64x5000 one)) (broadcast S64x5000 c)) i
      = ((Real.exp ((min (x * y) 1 - 1) * t) : ℝ) : EReal) := by
  show Ideal.exp ((min (m i * n i) one - one) * c) = _
  rw [hm, hn, h1, hc, ← EReal.coe_mul, min_coe, ← EReal.coe_sub, ← EReal.coe_mul, Ideal.exp_coe]

/-- A row's sum of squares of coerced reals. -/
private theorem sumsq_coe (ar : Fin 5000 → Fin 512 → ℝ) (r : Fin 5000) :
    ∑ k : Fin 512, arr2 ar (ix2 r k) * arr2 ar (ix2 r k) = ((∑ k, ar r k * ar r k : ℝ) : EReal) := by
  rw [← coe_sum]
  refine Finset.sum_congr rfl fun k _ => ?_
  rw [EReal.coe_mul]; rfl

/-- The weights of a tile of real rows are the reals `tWt`. -/
theorem pay5_eq (qnr : Fin 64 → Fin 512 → ℝ) (ar : Fin 5000 → Fin 512 → ℝ) :
    k0_pay5 (F := Ideal) (arr2 ar) (arr2 qnr) = arr2 (tWt qnr ar) := by
  refine ext2 _ _ fun b r => ?_
  rw [arr2_ix2]
  unfold k0_pay5 tWt
  dsimp only
  refine tail_eq _ _ _ _ _ _ _ _ ?_ ?_ ofBits_one named_inv_temperature
  · refine (matmulA_apply _ _ b r).trans ?_
    rw [shapeCast_self, ← coe_sum]
    refine Finset.sum_congr rfl fun k _ => ?_
    rw [EReal.coe_mul]; rfl
  · refine (rnorm_apply _ _ b r).trans ?_
    rw [named_eps_squared, sumsq_coe, max_coe, rsqrt_coe]
    exact lt_of_lt_of_le (mul_pos eps_pos eps_pos) (le_max_right _ _)

/-- The weights buffer after a tile: what it held plus the tile's sum of weights. -/
theorem pay6_apply (qnr : Fin 64 → Fin 512 → ℝ) (ar : Fin 5000 → Fin 512 → ℝ) (prev : Vec Ideal S1x64x1 .f32) (b : Fin 64) :
    k0_pay6 (F := Ideal) (arr2 ar) (arr2 qnr) prev (ix3 (0 : Fin 1) b (0 : Fin 1))
      = prev (ix3 (0 : Fin 1) b (0 : Fin 1)) + ((tDen qnr ar b : ℝ) : EReal) := by
  unfold k0_pay6
  dsimp only
  refine (shapeCast_ab_1ab_apply _ _ (0 : Fin 1) b (0 : Fin 1)).trans ?_
  refine (addf_apply _ _ _).trans ?_
  refine congrArg₂ (· + ·) ?_ ?_
  · exact shapeCast_1ab_ab_apply _ _ b (0 : Fin 1)
  · refine (cast_col _ _ b (0 : Fin 1)).trans ?_
    refine (rowsum5000_apply _ b).trans ?_
    unfold tDen
    rw [pay5_eq, ← coe_sum]
    rfl

/-- The weighted-rows buffer after a tile: what it held plus the tile's weighted rows. -/
theorem pay1_apply (qnr : Fin 64 → Fin 512 → ℝ) (ar : Fin 5000 → Fin 512 → ℝ) (prev : Vec Ideal S1x64x512 .f32)
    (b : Fin 64) (d : Fin 512) :
    k0_pay1 (F := Ideal) (k0_pay4 (arr2 ar)) (k0_pay7 (arr2 ar) (arr2 qnr)) prev (ix3 (0 : Fin 1) b d)
      = prev (ix3 (0 : Fin 1) b d) + ((tNum qnr ar b d : ℝ) : EReal) := by
  unfold k0_pay1
  refine (shapeCast_ab_1ab_apply _ _ (0 : Fin 1) b d).trans ?_
  refine (addf_apply _ _ _).trans ?_
  refine congrArg₂ (· + ·) ?_ ?_
  · exact shapeCast_1ab_ab_apply _ _ b d
  · refine (matmulB_apply _ _ b d).trans ?_
    unfold tNum
    rw [← coe_sum]
    refine Finset.sum_congr rfl fun r _ => ?_
    rw [EReal.coe_mul]
    show k0_pay5 (F := Ideal) (arr2 ar) (arr2 qnr) (ix2 b r) * arr2 ar (ix2 r d) = _
    rw [pay5_eq]
    rfl

/-- The zero blocks the first tile of a partition stores. -/
theorem pay2_apply (i : S1x64x512.Idx) : k0_pay2 (F := Ideal) i = ((0 : ℝ) : EReal) := by
  exact ofBits_zero
theorem pay3_apply (i : S1x64x1.Idx) : k0_pay3 (F := Ideal) i = ((0 : ℝ) : EReal) := by
  exact ofBits_zero

end Cert.KernelIdeal.Payload

end
-- ==== Proof.KernelBlocks.lean ====
/-
  What the kernel's two input windows hold at a grid point: the whole array of normalised queries (computed by the
  host operations before the launch), and tile `t` of the address rows.
-/
import proofs.«421213_j39702677684486_3_alg».proof.Proof.Gen.KernelIdeal.Frame
import proofs.«421213_j39702677684486_3_alg».proof.Proof.Spec
import proofs.«421213_j39702677684486_3_alg».proof.Proof.IdealReal
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.Spec Cert.IdealReal

variable (m : (ℓ : Loc nD τ sig) → Buf (Elt Ideal) ℓ)

/-! ## The normalised queries -/

/-- The eleven operations before the launch, as one function of the queries' array: the array divided, row by row, by
    the square root of the row's sum of squares clamped below at the constant. -/
private def normed (x : Vec Ideal S64x512 .f32) : Vec Ideal S64x512 .bf16 :=
  truncf .bf16 (Host.divf x
    (broadcastInDim S64x512 ![0, 1] bcast_S64x1_S64x512_0_1
      (maximumf (Host.sqrt (broadcastInDim S64x1 ![0] bcast_S64_S64x1_0
          (Host.reduceAdd (mulf x x) (constant (F := Ideal) S_ .f32 0x00000000#32) reducesTo_S64x512_S64_d1 h_S_)))
        (broadcastInDim S64x1 ![] bcast_S_S64x1 (constant (F := Ideal) S_ .f32 0x322BCC77#32))))) bitsLt_bf16_f32

/-- What the first window's array holds when the launch begins is that function of the queries. -/
private theorem V_v8_eq (c : Dev nD) :
    (V m c main_v8 : Vec Ideal S64x512 .bf16) = normed (m ((c.tc : Thread nD τ).loc main_arg0)) := by
  show StableHlo.after hostOps0 (fun b => m (c, b)) (Proc.devRef .tc main_v8) = _
  after_results
  rfl

/-- A row's sum of squares: zero plus the sum over the row of the entries' squares. -/
private theorem sumsq_apply (q : Fin 64 → Fin 512 → ℝ) (b : Fin 64) :
    Host.reduceAdd (mulf (arr2 q : Vec Ideal S64x512 .f32) (arr2 q)) (constant (F := Ideal) S_ .f32 0x00000000#32)
      reducesTo_S64x512_S64_d1 h_S_ (ix1 b) = ((∑ k, q b k * q b k : ℝ) : EReal) := by
  simp only [Host.reduceAdd, Ideal.hostReduceAdd_def]
  rw [Ideal.hostReduceAdd_single reducesTo_S64x512_S64_d1 (by decide)]
  rw [constant_apply, ofBits_zero, EReal.coe_zero, zero_add, ← coe_sum]
  refine Finset.sum_congr rfl fun k _ => ?_
  rw [EReal.coe_mul]
  rfl

/-- A column repeated along the rows reads the column at the same row. -/
private theorem bcast_col_apply (y : Vec Ideal S64x1 .f32) (b : Fin 64) (d : Fin 512) :
    (broadcastInDim S64x512 ![0, 1] bcast_S64x1_S64x512_0_1 : Vec Ideal S64x1 .f32 → Vec Ideal S64x512 .f32) y (ix2 b d)
      = y (ix2 b (0 : Fin 1)) :=
  broadcastInDim_apply _ bcast_S64x1_S64x512_0_1 y (ix2 b d) (ix2 b (0 : Fin 1)) (fun a => match a with
    | ⟨0, _⟩ => by show b.val = if (64 : Nat) = 1 then 0 else b.val; rw [if_neg (by decide)]
    | ⟨1, _⟩ => by show 0 = if (1 : Nat) = 1 then 0 else d.val; rw [if_pos rfl])

/-- A vector written as a column reads the vector at the row. -/
private theorem bcast_vec_apply (y : Vec Ideal S64 .f32) (b : Fin 64) :
    (broadcastInDim S64x1 ![0] bcast_S64_S64x1_0 : Vec Ideal S64 .f32 → Vec Ideal S64x1 .f32) y (ix2 b (0 : Fin 1))
      = y (ix1 b) :=
  broadcastInDim_apply _ bcast_S64_S64x1_0 y (ix2 b (0 : Fin 1)) (ix1 b) (fun a => match a with
    | ⟨0, _⟩ => by show b.val = if (64 : Nat) = 1 then 0 else b.val; rw [if_neg (by decide)])

/-- A scalar spread over a column reads the scalar. -/
private theorem bcast_scalar_apply (y : Vec Ideal S_ .f32) (b : Fin 64) :
    (broadcastInDim S64x1 ![] bcast_S_S64x1 : Vec Ideal S_ .f32 → Vec Ideal S64x1 .f32) y (ix2 b (0 : Fin 1))
      = y ix0 :=
  broadcastInDim_apply _ bcast_S_S64x1 y (ix2 b (0 : Fin 1)) ix0 (fun a => a.elim0)

/-- The host operations before the launch leave the queries divided by their clamped norms. -/
theorem V_qn (q : Fin 64 → Fin 512 → ℝ) (hq : ∀ c : Dev nD, m ((c.tc : Thread nD τ).loc main_arg0) = arr2 q) (c : Dev nD) :
    (V m c main_v8 : Vec Ideal S64x512 .bf16) = arr2 (qn q) := by
  rw [V_v8_eq m c, hq c]
  refine Spec.ext2 _ _ fun b d => ?_
  rw [arr2_ix2]
  unfold normed
  rw [truncf_apply]
  show Ideal.div (arr2 q (ix2 b d)) _ = _
  -- the divisor at (b, d) is the clamped norm of row b: the sum of squares is non-negative, so its square root is
  -- the real one, and the clamp keeps the divisor positive
  rw [bcast_col_apply, maximumf_apply, bcast_scalar_apply, constant_apply, ofBits_eps]
  show Ideal.div _ (max (Ideal.sqrt _) _) = _
  rw [bcast_vec_apply, sumsq_apply, sqrt_coe _ (Finset.sum_nonneg fun k _ => mul_self_nonneg _), max_coe, arr2_ix2,
    div_coe _ _ (ne_of_gt (lt_of_lt_of_le eps_pos (le_max_right _ _)))]
  rfl

/-! ## The windows' blocks -/

/-- The first window's one block is the whole array. -/
theorem iblk0_eq (c : Dev nD) (t : Fin cfg0.N) : (iblk m c 0 t : Vec Ideal S64x512 .bf16) = V m c main_v8 := by
  -- the block's index is (0, 0) at every grid point
  have hi : ∀ t : Fin cfg0.N, win0_0.index t 0 = 0 ∧ win0_0.index t 1 = 0 :=
    (by decide +kernel : ∀ t : Fin grid0.N, win0_0.index t 0 = 0 ∧ win0_0.index t 1 = 0)
  funext j
  unfold iblk
  rw [View.read_apply]
  show V m c main_v8 _ = V m c main_v8 j
  congr 1
  funext a
  apply Fin.ext
  match a with
  | ⟨0, _⟩ => show win0_0.index t 0 * 64 + 1 * (j 0).val = (j 0).val; rw [(hi t).1]; omega
  | ⟨1, _⟩ => show win0_0.index t 1 * 512 + 1 * (j 1).val = (j 1).val; rw [(hi t).2]; omega

/-- The array of reals `a` at an index whose coordinates are the numbers `n` and `k`. -/
private theorem arr2_at (a : Fin 200000 → Fin 512 → ℝ) (i : (⟨2, ![200000, 512]⟩ : Shape).Idx) (n : ℕ) (hn : n < 200000)
    (k : Fin 512) (h0 : (i 0).val = n) (h1 : (i 1).val = k.val) : arr2 a i = ((a ⟨n, hn⟩ k : ℝ) : EReal) := by
  unfold arr2
  congr 2
  · exact Fin.ext h0
  · exact Fin.ext h1

/-- The second window's block at point `t` is tile `t` of the address rows. -/
theorem iblk1_eq (a : Fin 200000 → Fin 512 → ℝ) (ha : ∀ c : Dev nD, m ((c.tc : Thread nD τ).loc main_arg1) = arr2 a) (c : Dev nD) (t : Fin cfg0.N) :
    (iblk m c 1 t : Vec Ideal S5000x512 .f32) = arr2 (tile a t.val) := by
  -- the block's index at point number t of the 2 × 20 grid is (t, 0): 20 p + n is the row-major number of (p, n)
  have hi : ∀ t : Fin cfg0.N, win0_1.index t 0 = t.val ∧ win0_1.index t 1 = 0 :=
    (by decide +kernel : ∀ t : Fin grid0.N, win0_1.index t 0 = t.val ∧ win0_1.index t 1 = 0)
  have hN : t.val < 40 := lt_of_lt_of_eq t.isLt N_0
  refine Spec.ext2 _ _ fun r k => ?_
  rw [arr2_ix2]
  unfold iblk
  rw [View.read_apply]
  show V m c main_arg1 _ = _
  rw [V_main_arg1 m c, ha c]
  -- entry (r, k) of the block is entry (5000 t + r, k) of the array, a row below 200000
  have hr : t.val * 5000 + r.val < 200000 := by have := r.isLt; omega
  rw [arr2_at a _ (t.val * 5000 + r.val) hr k
    (by show win0_1.index t 0 * 5000 + 1 * r.val = _; rw [(hi t).1]; omega)
    (by show win0_1.index t 1 * 512 + 1 * k.val = _; rw [(hi t).2]; omega)]
  simp only [tile, aExt, dif_pos hr]

end Cert.KernelIdeal.Blocks

end
-- ==== Proof.KernelAccum.lean ====
/-
  What the two output buffers hold after each grid point: the running sums `accNum`, `accDen` of the tiles so far in
  the point's partition — by induction on the point.
-/
import proofs.«421213_j39702677684486_3_alg».proof.Proof.Gen.KernelIdeal.Frame
import proofs.«421213_j39702677684486_3_alg».proof.Proof.Spec
import proofs.«421213_j39702677684486_3_alg».proof.Proof.IdealReal
import proofs.«421213_j39702677684486_3_alg».proof.Proof.KernelPieces
import proofs.«421213_j39702677684486_3_alg».proof.Proof.KernelPayload
import proofs.«421213_j39702677684486_3_alg».proof.Proof.KernelBlocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Spec Cert.IdealReal

/-! ## One tile's update of a block of reals

  The body's arithmetic, applied to blocks that hold real numbers, gives blocks that hold real numbers: the update of
  the zero block is the tile's own sums, the update of a block `g` is `g` plus the tile's sums. -/

/-- The weighted-rows update of the zero block is the tile's weighted rows. -/
private theorem num_zero (qnr : Fin 64 → Fin 512 → ℝ) (ar : Fin 5000 → Fin 512 → ℝ)
    (x0 : Vec Ideal S64x512 .bf16) (x1 : Vec Ideal S5000x512 .f32) (h0 : x0 = arr2 qnr) (h1 : x1 = arr2 ar) :
    k0_pay1 (F := Ideal) (k0_pay4 x1) (k0_pay7 x1 x0) (k0_pay2 (F := Ideal))
      = arr3 (fun (_ : Fin 1) (b : Fin 64) (d : Fin 512) => tNum qnr ar b d) := by
  subst h0 h1
  refine ext3 _ _ fun z b d => ?_
  obtain rfl : z = 0 := Subsingleton.elim _ _
  rw [Payload.pay1_apply, Payload.pay2_apply, arr3_ix3, EReal.coe_zero, zero_add]

/-- The weights update of the zero block is the tile's weights. -/
private theorem den_zero (qnr : Fin 64 → Fin 512 → ℝ) (ar : Fin 5000 → Fin 512 → ℝ)
    (x0 : Vec Ideal S64x512 .bf16) (x1 : Vec Ideal S5000x512 .f32) (h0 : x0 = arr2 qnr) (h1 : x1 = arr2 ar) :
    k0_pay6 (F := Ideal) x1 x0 (k0_pay3 (F := Ideal))
      = arr3 (fun (_ : Fin 1) (b : Fin 64) (_ : Fin 1) => tDen qnr ar b) := by
  subst h0 h1
  refine ext3 _ _ fun z b z' => ?_
  obtain rfl : z = 0 := Subsingleton.elim _ _
  obtain rfl : z' = 0 := Subsingleton.elim _ _
  rw [Payload.pay6_apply, Payload.pay3_apply, arr3_ix3, EReal.coe_zero, zero_add]

/-- The weighted-rows update of a block of reals `g` is `g` plus the tile's weighted rows. -/
private theorem num_step (qnr : Fin 64 → Fin 512 → ℝ) (ar : Fin 5000 → Fin 512 → ℝ) (g : Fin 64 → Fin 512 → ℝ)
    (x0 : Vec Ideal S64x512 .bf16) (x1 : Vec Ideal S5000x512 .f32) (xo : Vec Ideal S1x64x512 .f32)
    (h0 : x0 = arr2 qnr) (h1 : x1 = arr2 ar) (ho : xo = arr3 (fun (_ : Fin 1) (b : Fin 64) (d : Fin 512) => g b d)) :
    k0_pay1 (F := Ideal) (k0_pay4 x1) (k0_pay7 x1 x0) xo
      = arr3 (fun (_ : Fin 1) (b : Fin 64) (d : Fin 512) => g b d + tNum qnr ar b d) := by
  subst h0 h1 ho
  refine ext3 _ _ fun z b d => ?_
  obtain rfl : z = 0 := Subsingleton.elim _ _
  rw [Payload.pay1_apply, arr3_ix3, arr3_ix3, ← EReal.coe_add]

/-- The weights update of a block of reals `g` is `g` plus the tile's weights. -/
private theorem den_step (qnr : Fin 64 → Fin 512 → ℝ) (ar : Fin 5000 → Fin 512 → ℝ) (g : Fin 64 → ℝ)
    (x0 : Vec Ideal S64x512 .bf16) (x1 : Vec Ideal S5000x512 .f32) (xo : Vec Ideal S1x64x1 .f32)
    (h0 : x0 = arr2 qnr) (h1 : x1 = arr2 ar) (ho : xo = arr3 (fun (_ : Fin 1) (b : Fin 64) (_ : Fin 1) => g b)) :
    k0_pay6 (F := Ideal) x1 x0 xo
      = arr3 (fun (_ : Fin 1) (b : Fin 64) (_ : Fin 1) => g b + tDen qnr ar b) := by
  subst h0 h1 ho
  refine ext3 _ _ fun z b z' => ?_
  obtain rfl : z = 0 := Subsingleton.elim _ _
  obtain rfl : z' = 0 := Subsingleton.elim _ _
  rw [Payload.pay6_apply, arr3_ix3, arr3_ix3, ← EReal.coe_add]

variable (m : (ℓ : Loc nD τ sig) → Buf (Elt Ideal) ℓ)

/-- After point `n` the weighted-rows buffer holds `accNum n` and the weights buffer `accDen n`. -/
theorem outsAt_eq (q : Fin 64 → Fin 512 → ℝ) (a : Fin 200000 → Fin 512 → ℝ) (hq : ∀ c : Dev nD, m ((c.tc : Thread nD τ).loc main_arg0) = arr2 q) (ha : ∀ c : Dev nD, m ((c.tc : Thread nD τ).loc main_arg1) = arr2 a) (c : Dev nD) :
    ∀ (n : ℕ) (h : n < cfg0.N), outsAt0 m c n h
      = (arr3 (fun (_ : Fin 1) (b : Fin 64) (d : Fin 512) => accNum q a n b d),
         arr3 (fun (_ : Fin 1) (b : Fin 64) (_ : Fin 1) => accDen q a n b)) := by
  -- the two input blocks at any point: the normalised queries, and the point's tile of address rows
  have e0 : ∀ t : Fin cfg0.N, (iblk m c 0 t : Vec Ideal S64x512 .bf16) = arr2 (qn q) := fun t =>
    (Blocks.iblk0_eq m c t).trans (Blocks.V_qn m q hq c)
  have e1 : ∀ t : Fin cfg0.N, (iblk m c 1 t : Vec Ideal S5000x512 .f32) = arr2 (tile a t.val) := fun t =>
    Blocks.iblk1_eq m a ha c t
  -- a point that starts a partition: the buffers hold the tile's own sums
  have hA : ∀ (n : ℕ) (h : n < cfg0.N), n % 20 = 0 → outsAt0 m c n h
      = (arr3 (fun (_ : Fin 1) (b : Fin 64) (d : Fin 512) => tNum (qn q) (tile a n) b d),
         arr3 (fun (_ : Fin 1) (b : Fin 64) (_ : Fin 1) => tDen (qn q) (tile a n) b)) := by
    intro n h h0
    rw [outsAt0_A m c ⟨n, h⟩ h0]
    refine Prod.ext ?_ ?_
    · dsimp only
      exact (Pieces.out_A_2 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr h0) (iblk m c 0 ⟨n, h⟩) (iblk m c 1 ⟨n, h⟩)).trans
        (num_zero (qn q) (tile a n) (iblk m c 0 ⟨n, h⟩) (iblk m c 1 ⟨n, h⟩) (e0 ⟨n, h⟩) (e1 ⟨n, h⟩))
    · dsimp only
      exact (Pieces.out_A_3 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr h0) (iblk m c 0 ⟨n, h⟩) (iblk m c 1 ⟨n, h⟩)).trans
        (den_zero (qn q) (tile a n) (iblk m c 0 ⟨n, h⟩) (iblk m c 1 ⟨n, h⟩) (e0 ⟨n, h⟩) (e1 ⟨n, h⟩))
  intro n
  induction n with
  | zero =>
    intro h
    rw [hA 0 h rfl]
    rfl
  | succ n ih =>
    intro h
    by_cases h0 : (n + 1) % 20 = 0
    · rw [hA (n + 1) h h0]
      simp only [accNum, accDen, if_pos h0]
    · have hB : ¬(⟨n + 1, h⟩ : Fin cfg0.N).val % 20 = 0 := h0
      have hp := ih (Nat.lt_of_succ_lt h)
      rw [outsAt0_B m c ⟨n + 1, h⟩ hB]
      refine Prod.ext ?_ ?_
      · dsimp only
        refine (Pieces.out_B_2 (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (fun hc => hB ((hcond0_0 ⟨n + 1, h⟩).mp hc))
          (iblk m c 0 ⟨n + 1, h⟩) (iblk m c 1 ⟨n + 1, h⟩)
          (outsAt0 m c n (Nat.lt_of_succ_lt h)).1 (outsAt0 m c n (Nat.lt_of_succ_lt h)).2).trans ?_
        refine (num_step (qn q) (tile a (n + 1)) (accNum q a n) (iblk m c 0 ⟨n + 1, h⟩) (iblk m c 1 ⟨n + 1, h⟩)
          (outsAt0 m c n (Nat.lt_of_succ_lt h)).1 (e0 ⟨n + 1, h⟩) (e1 ⟨n + 1, h⟩) (congrArg Prod.fst hp)).trans ?_
        simp only [accNum, if_neg h0]
      · dsimp only
        refine (Pieces.out_B_3 (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (fun hc => hB ((hcond0_0 ⟨n + 1, h⟩).mp hc))
          (iblk m c 0 ⟨n + 1, h⟩) (iblk m c 1 ⟨n + 1, h⟩)
          (outsAt0 m c n (Nat.lt_of_succ_lt h)).1 (outsAt0 m c n (Nat.lt_of_succ_lt h)).2).trans ?_
        refine (den_step (qn q) (tile a (n + 1)) (accDen q a n) (iblk m c 0 ⟨n + 1, h⟩) (iblk m c 1 ⟨n + 1, h⟩)
          (outsAt0 m c n (Nat.lt_of_succ_lt h)).2 (e0 ⟨n + 1, h⟩) (e1 ⟨n + 1, h⟩) (congrArg Prod.snd hp)).trans ?_
        simp only [accDen, if_neg h0]

end Cert.KernelIdeal.Accum

end
-- ==== Proof.KernelFinal.lean ====
/-
  The launch's two result arrays: partition `p`'s block is written back once, after the partition's last tile, so the
  arrays end holding the running sums after tiles 19 and 39.
-/
import proofs.«421213_j39702677684486_3_alg».proof.Proof.Gen.KernelIdeal.Frame
import proofs.«421213_j39702677684486_3_alg».proof.Proof.Spec
import proofs.«421213_j39702677684486_3_alg».proof.Proof.KernelAccum
import Idealize.ShloMosaic.Lib.Pipeline.Value

noncomputable section

open scoped BigOperators
open Idealize.ShloMosaic Idealize.ShloMosaic.TcCoe Idealize.SL.Sem Idealize.ShloMosaic.ValueIdx

open Idealize.ShloMosaic.Pipeline (Dat)

namespace Cert.KernelIdeal.Final

open Cert.KernelIdeal Cert.KernelIdeal.Gen Cert.Spec

variable (m : (ℓ : Loc nD τ sig) → Buf (Elt Ideal) ℓ)

/-! ## Where the blocks sit

At grid point `t = 20 p + n` both result windows hold block `(p, 0, 0)`: the block index on the leading axis is the
partition `t / 20`, and zero on the other two. -/

private theorem idx2 : ∀ t : Fin cfg0.N, win0_2.index t (0 : Fin 3) = t.val / 20 ∧ win0_2.index t (1 : Fin 3) = 0 ∧ win0_2.index t (2 : Fin 3) = 0 :=
  (by decide +kernel : ∀ t : Fin grid0.N, win0_2.index t (0 : Fin 3) = t.val / 20 ∧ win0_2.index t (1 : Fin 3) = 0 ∧ win0_2.index t (2 : Fin 3) = 0)

private theorem idx3 : ∀ t : Fin cfg0.N, win0_3.index t (0 : Fin 3) = t.val / 20 ∧ win0_3.index t (1 : Fin 3) = 0 ∧ win0_3.index t (2 : Fin 3) = 0 :=
  (by decide +kernel : ∀ t : Fin grid0.N, win0_3.index t (0 : Fin 3) = t.val / 20 ∧ win0_3.index t (1 : Fin 3) = 0 ∧ win0_3.index t (2 : Fin 3) = 0)

/-- The running sum of weighted rows depends on its tile and coordinates only through their values. -/
private theorem accNum_congr (q : Fin 64 → Fin 512 → ℝ) (a : Fin 200000 → Fin 512 → ℝ) {n n' : ℕ} {b b' : Fin 64} {d d' : Fin 512}
    (hn : n = n') (hb : b.val = b'.val) (hd : d.val = d'.val) : accNum q a n b d = accNum q a n' b' d' := by
  subst hn; obtain rfl := Fin.ext hb; obtain rfl := Fin.ext hd; rfl

/-- The running sum of weights likewise. -/
private theorem accDen_congr (q : Fin 64 → Fin 512 → ℝ) (a : Fin 200000 → Fin 512 → ℝ) {n n' : ℕ} {b b' : Fin 64}
    (hn : n = n') (hb : b.val = b'.val) : accDen q a n b = accDen q a n' b' := by
  subst hn; obtain rfl := Fin.ext hb; rfl

/-! ## The weighted-rows array -/

/-- The whole array of weighted rows: entry `(p, b, d)` is the running sum after partition `p`'s last tile. -/
private abbrev G2 (q : Fin 64 → Fin 512 → ℝ) (a : Fin 200000 → Fin 512 → ℝ) : S2x64x512.Idx → EReal :=
  arr3 (fun (p : Fin 2) (b : Fin 64) (d : Fin 512) => accNum q a (p.val * 20 + 19) b d)

/-- What a last-tile point `t` (`t % 20 = 19`) writes back is block `t / 20` of that array: the running sum after tile
    `t`, and `(t / 20) * 20 + 19 = t`. -/
private theorem flushed2_eq (q : Fin 64 → Fin 512 → ℝ) (a : Fin 200000 → Fin 512 → ℝ) (hq : ∀ c : Dev nD, m ((c.tc : Thread nD τ).loc main_arg0) = arr2 q) (ha : ∀ c : Dev nD, m ((c.tc : Thread nD τ).loc main_arg1) = arr2 a) (c : Dev nD)
    (t : Fin cfg0.N) (hf : (cfg0.win 2).flush t = true) :
    (dats m 0 c).flushed 2 t = ((cfg0.win 2).blk t).view.read (Elt Ideal) (G2 q a) := by
  have hN : cfg0.N = 40 := N_0
  have h19 : t.val % 20 = 19 := (flush0_2 t).mp hf
  show (cfg0.win 2).cut (grid0.coords t) ((dats m 0 c).after 2 t) = _
  rw [after0_2, Accum.outsAt_eq m q a hq ha c t.val t.isLt]
  dsimp only
  funext y
  rw [View.read_apply]
  obtain ⟨i0, i1, i2⟩ := idx2 t
  have y0 : (y 0).val < 1 := (y 0).isLt
  show arr3 (fun (_ : Fin 1) b d => accNum q a t.val b d) ((win0 2).xinj (grid0.coords t) y) = G2 q a (((View.whole main_v9_0).slice ((win0 2).rect t)).emb y)
  refine congrArg Real.toEReal (accNum_congr q a ?_ ?_ ?_)
  · show t.val = (win0_2.index t (0 : Fin 3) * 1 + 1 * (y 0).val) * 20 + 19
    rw [i0]; omega
  · show (y 1).val = win0_2.index t (1 : Fin 3) * 64 + 1 * (y 1).val
    rw [i1]; omega
  · show (y 2).val = win0_2.index t (2 : Fin 3) * 512 + 1 * (y 2).val
    rw [i2]; omega

/-- The weighted-rows result array. -/
theorem final_num (q : Fin 64 → Fin 512 → ℝ) (a : Fin 200000 → Fin 512 → ℝ) (hq : ∀ c : Dev nD, m ((c.tc : Thread nD τ).loc main_arg0) = arr2 q) (ha : ∀ c : Dev nD, m ((c.tc : Thread nD τ).loc main_arg1) = arr2 a) (c : Dev nD) :
    (dats m 0 c).arrAt 2 cfg0.N = arr3 (fun (p : Fin 2) (b : Fin 64) (d : Fin 512) => accNum q a (p.val * 20 + 19) b d) := by
  have hN : cfg0.N = 40 := N_0
  -- entry (p, b, d) lies in the block written back at the point 20 p + 19
  refine (dats m 0 c).arrAt_eq_of_cover 2 (G2 q a) (flushed2_eq m q a hq ha c) fun i => ?_
  have h0 : (i 0 : Nat) < 2 := (i 0).isLt
  have h1 : (i 1 : Nat) < 64 := (i 1).isLt
  have h2 : (i 2 : Nat) < 512 := (i 2).isLt
  have hlt : (i 0 : Nat) * 20 + 19 < cfg0.N := by omega
  refine ⟨⟨(i 0 : Nat) * 20 + 19, hlt⟩, (flush0_2 _).mpr (by dsimp only; omega), ?_⟩
  obtain ⟨i0, i1, i2⟩ := idx2 ⟨(i 0 : Nat) * 20 + 19, hlt⟩
  show i ∈ ((View.whole main_v9_0).slice (win0_2.rect ⟨(i 0 : Nat) * 20 + 19, hlt⟩)).set
  rw [View.set_slice_whole, Rect.mem_set_unit]
  intro a
  match a with
  | ⟨0, _⟩ => show win0_2.index _ (0 : Fin 3) * 1 ≤ (i 0 : Nat) ∧ (i 0 : Nat) < win0_2.index _ (0 : Fin 3) * 1 + 1
              rw [i0]; dsimp only; omega
  | ⟨1, _⟩ => show win0_2.index _ (1 : Fin 3) * 64 ≤ (i 1 : Nat) ∧ (i 1 : Nat) < win0_2.index _ (1 : Fin 3) * 64 + 64
              rw [i1]; omega
  | ⟨2, _⟩ => show win0_2.index _ (2 : Fin 3) * 512 ≤ (i 2 : Nat) ∧ (i 2 : Nat) < win0_2.index _ (2 : Fin 3) * 512 + 512
              rw [i2]; omega

/-! ## The weights array -/

/-- The whole array of weights: entry `(p, b, 0)` is the running sum after partition `p`'s last tile. -/
private abbrev G3 (q : Fin 64 → Fin 512 → ℝ) (a : Fin 200000 → Fin 512 → ℝ) : S2x64x1.Idx → EReal :=
  arr3 (fun (p : Fin 2) (b : Fin 64) (_ : Fin 1) => accDen q a (p.val * 20 + 19) b)

/-- What a last-tile point `t` (`t % 20 = 19`) writes back is block `t / 20` of that array. -/
private theorem flushed3_eq (q : Fin 64 → Fin 512 → ℝ) (a : Fin 200000 → Fin 512 → ℝ) (hq : ∀ c : Dev nD, m ((c.tc : Thread nD τ).loc main_arg0) = arr2 q) (ha : ∀ c : Dev nD, m ((c.tc : Thread nD τ).loc main_arg1) = arr2 a) (c : Dev nD)
    (t : Fin cfg0.N) (hf : (cfg0.win 3).flush t = true) :
    (dats m 0 c).flushed 3 t = ((cfg0.win 3).blk t).view.read (Elt Ideal) (G3 q a) := by
  have hN : cfg0.N = 40 := N_0
  have h19 : t.val % 20 = 19 := (flush0_3 t).mp hf
  show (cfg0.win 3).cut (grid0.coords t) ((dats m 0 c).after 3 t) = _
  rw [after0_3, Accum.outsAt_eq m q a hq ha c t.val t.isLt]
  dsimp only
  funext y
  rw [View.read_apply]
  obtain ⟨i0, i1, i2⟩ := idx3 t
  have y0 : (y 0).val < 1 := (y 0).isLt
  show arr3 (fun (_ : Fin 1) b (_ : Fin 1) => accDen q a t.val b) ((win0 3).xinj (grid0.coords t) y) = G3 q a (((View.whole main_v9_1).slice ((win0 3).rect t)).emb y)
  refine congrArg Real.toEReal (accDen_congr q a ?_ ?_)
  · show t.val = (win0_3.index t (0 : Fin 3) * 1 + 1 * (y 0).val) * 20 + 19
    rw [i0]; omega
  · show (y 1).val = win0_3.index t (1 : Fin 3) * 64 + 1 * (y 1).val
    rw [i1]; omega

/-- The weights result array. -/
theorem final_den (q : Fin 64 → Fin 512 → ℝ) (a : Fin 200000 → Fin 512 → ℝ) (hq : ∀ c : Dev nD, m ((c.tc : Thread nD τ).loc main_arg0) = arr2 q) (ha : ∀ c : Dev nD, m ((c.tc : Thread nD τ).loc main_arg1) = arr2 a) (c : Dev nD) :
    (dats m 0 c).arrAt 3 cfg0.N = arr3 (fun (p : Fin 2) (b : Fin 64) (_ : Fin 1) => accDen q a (p.val * 20 + 19) b) := by
  have hN : cfg0.N = 40 := N_0
  -- entry (p, b, 0) lies in the block written back at the point 20 p + 19
  refine (dats m 0 c).arrAt_eq_of_cover 3 (G3 q a) (flushed3_eq m q a hq ha c) fun i => ?_
  have h0 : (i 0 : Nat) < 2 := (i 0).isLt
  have h1 : (i 1 : Nat) < 64 := (i 1).isLt
  have h2 : (i 2 : Nat) < 1 := (i 2).isLt
  have hlt : (i 0 : Nat) * 20 + 19 < cfg0.N := by omega
  refine ⟨⟨(i 0 : Nat) * 20 + 19, hlt⟩, (flush0_3 _).mpr (by dsimp only; omega), ?_⟩
  obtain ⟨i0, i1, i2⟩ := idx3 ⟨(i 0 : Nat) * 20 + 19, hlt⟩
  show i ∈ ((View.whole main_v9_1).slice (win0_3.rect ⟨(i 0 : Nat) * 20 + 19, hlt⟩)).set
  rw [View.set_slice_whole, Rect.mem_set_unit]
  intro a
  match a with
  | ⟨0, _⟩ => show win0_3.index _ (0 : Fin 3) * 1 ≤ (i 0 : Nat) ∧ (i 0 : Nat) < win0_3.index _ (0 : Fin 3) * 1 + 1
              rw [i0]; dsimp only; omega
  | ⟨1, _⟩ => show win0_3.index _ (1 : Fin 3) * 64 ≤ (i 1 : Nat) ∧ (i 1 : Nat) < win0_3.index _ (1 : Fin 3) * 64 + 64
              rw [i1]; omega
  | ⟨2, _⟩ => show win0_3.index _ (2 : Fin 3) * 1 ≤ (i 2 : Nat) ∧ (i 2 : Nat) < win0_3.index _ (2 : Fin 3) * 1 + 1
              rw [i2]; omega

end Cert.KernelIdeal.Final

end
-- ==== Proof.KernelRun.lean ====
/-
  The kernel program's run at the ideal instance on real inputs: the host operations after the launch add the two
  partitions' sums and divide, which is the weighted mean `out`.
-/
import proofs.«421213_j39702677684486_3_alg».proof.Proof.Gen.KernelIdeal.Frame
import proofs.«421213_j39702677684486_3_alg».proof.Proof.Spec
import proofs.«421213_j39702677684486_3_alg».proof.Proof.IdealReal
import proofs.«421213_j39702677684486_3_alg».proof.Proof.SpecSums
import proofs.«421213_j39702677684486_3_alg».proof.Proof.KernelFinal
import Idealize.ShloMosaic.Lib.Pipeline.Value
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx

open Idealize.ShloMosaic.Pipeline (Dat)

namespace Cert.KernelIdeal.RealRun

open Cert.KernelIdeal Cert.KernelIdeal.Gen Cert.Spec Cert.IdealReal

/-- The operations after the launch, as a function of the launch's two result arrays: the two partitions' blocks of each
    are cut out, added, and the sums divided (the divisor repeated along the row). -/
private def tail (N : FVec Ideal S2x64x512 .f32) (D : FVec Ideal S2x64x1 .f32) : FVec Ideal S64x512 .f32 :=
  Host.divf
    (addf
      (shapeCast S64x512 (extractStridedSlice S1x64x512 ![0, 0, 0] N slices_S2x64x512_S1x64x512_0_0_0) shapeCasts_S1x64x512_S64x512)
      (shapeCast S64x512 (extractStridedSlice S1x64x512 ![1, 0, 0] N slices_S2x64x512_S1x64x512_1_0_0) shapeCasts_S1x64x512_S64x512))
    (broadcastInDim (s := S64x1) S64x512 ![0, 1] bcast_S64x1_S64x512_0_1
      (addf
        (shapeCast S64x1 (extractStridedSlice S1x64x1 ![0, 0, 0] D slices_S2x64x1_S1x64x1_0_0_0) shapeCasts_S1x64x1_S64x1)
        (shapeCast S64x1 (extractStridedSlice S1x64x1 ![1, 0, 0] D slices_S2x64x1_S1x64x1_1_0_0) shapeCasts_S1x64x1_S64x1)))

/-- The block of partition `p` cut out of a `[2, 64, n]` array reads, at `(0, b, d)`, the array at `(p, b, d)`. -/
private theorem slice_part {α : Type} {n : Nat} (o : Nat) (X : (⟨3, ![2, 64, n]⟩ : Shape).Idx → α)
    (h : (⟨3, ![2, 64, n]⟩ : Shape).Slices ![o, 0, 0] ⟨3, ![1, 64, n]⟩) (p : Fin 2) (hp : p.val = o) (b : Fin 64) (d : Fin n) :
    extractStridedSlice ⟨3, ![1, 64, n]⟩ ![o, 0, 0] X h (ix3 (0 : Fin 1) b d) = X (ix3 p b d) :=
  extractStridedSlice_apply _ _ _ _ _ (fun ax => by
    match ax with
    | ⟨0, _⟩ => exact hp.trans (Nat.add_zero _).symm
    | ⟨1, _⟩ => exact (Nat.zero_add _).symm
    | ⟨2, _⟩ => exact (Nat.zero_add _).symm)

/-- A `[64, 1]` column repeated along the rows reads, at `(b, d)`, the column at `(b, 0)`. -/
private theorem bcast_col {α : Type} (Y : S64x1.Idx → α) (b : Fin 64) (d : Fin 512) :
    broadcastInDim (s := S64x1) S64x512 ![0, 1] bcast_S64x1_S64x512_0_1 Y (ix2 b d) = Y (ix2 b (0 : Fin 1)) :=
  broadcastInDim_apply _ _ _ _ _ (fun ax => by
    match ax with
    | ⟨0, _⟩ => show b.val = if (64 : ℕ) = 1 then 0 else b.val; rw [if_neg (by decide)]
    | ⟨1, _⟩ => show (0 : ℕ) = if (1 : ℕ) = 1 then 0 else d.val; rw [if_pos rfl])

/-- `tail` of two arrays of reals, at `(b, d)`: the sum of the two partitions' entries of the first over the sum of
    the two partitions' entries of the second, when that divisor is not zero. -/
private theorem tail_apply (fN : Fin 2 → Fin 64 → Fin 512 → ℝ) (fD : Fin 2 → Fin 64 → Fin 1 → ℝ)
    (N : FVec Ideal S2x64x512 .f32) (D : FVec Ideal S2x64x1 .f32) (hN : N = arr3 fN) (hD : D = arr3 fD)
    (b : Fin 64) (d : Fin 512) (hne : fD 0 b 0 + fD 1 b 0 ≠ 0) :
    tail N D (ix2 b d) = (((fN 0 b d + fN 1 b d) / (fD 0 b 0 + fD 1 b 0) : ℝ) : EReal) := by
  subst hN hD
  have eN : ∀ (p : Fin 2) (o : Nat) (hp : p.val = o) (h : S2x64x512.Slices ![o, 0, 0] S1x64x512),
      shapeCast S64x512 (extractStridedSlice S1x64x512 ![o, 0, 0] (arr3 fN) h) shapeCasts_S1x64x512_S64x512 (ix2 b d)
        = ((fN p b d : ℝ) : EReal) :=
    fun p o hp h => (shapeCast_1ab_ab_apply _ _ b d).trans ((slice_part o _ h p hp b d).trans (arr3_ix3 fN p b d))
  have eD : ∀ (p : Fin 2) (o : Nat) (hp : p.val = o) (h : S2x64x1.Slices ![o, 0, 0] S1x64x1),
      shapeCast S64x1 (extractStridedSlice S1x64x1 ![o, 0, 0] (arr3 fD) h) shapeCasts_S1x64x1_S64x1 (ix2 b (0 : Fin 1))
        = ((fD p b 0 : ℝ) : EReal) :=
    fun p o hp h => (shapeCast_1ab_ab_apply _ _ b (0 : Fin 1)).trans ((slice_part o _ h p hp b (0 : Fin 1)).trans (arr3_ix3 fD p b 0))
  unfold tail
  show Ideal.div (_ + _) (broadcastInDim (s := S64x1) S64x512 ![0, 1] bcast_S64x1_S64x512_0_1 _ (ix2 b d)) = _
  rw [bcast_col]
  show Ideal.div (_ + _) (_ + _) = _
  rw [eN 0 0 rfl, eN 1 1 rfl, eD 0 0 rfl, eD 1 1 rfl, ← EReal.coe_add, ← EReal.coe_add, div_coe _ _ hne]

/-- The result buffer after the operations that follow the launch is `tail` of the launch's two result arrays. -/
private theorem tail_eq (m : (ℓ : Loc nD τ sig) → Buf (Elt Ideal) ℓ) (c : Dev nD) :
    Pipeline.afterTail₀ cfgs (dats m) 0 (V0 m) [hostOps1] c main_v21
      = tail ((dats m 0 c).arrAt 2 cfg0.N) ((dats m 0 c).arrAt 3 cfg0.N) := by
  unfold Pipeline.afterTail₀
  show StableHlo.after hostOps1 _ (Proc.devRef .tc main_v21) = _
  open StableHlo in after_results
  have h2 : Pipeline.withArrays (cfgs 0).spec c (V0 m c) (fun w => (dats m 0 c).arrAt w (cfgs 0).N) (Proc.devRef .tc main_v9_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v9_1)
      = (dats m 0 c).arrAt 3 cfg0.N := Pipeline.withArrays_arr spec0 launch0.win.arr_inj c _ _ 3
  rw [h2, h3]
  rfl

/-- The result buffer after the operations that follow the launch holds the weighted mean: the two result arrays hold
    the partitions' running sums after tiles 19 and 39, whose sums' quotient it is; the divisor is the sum of all the
    weights, which is positive. -/
private theorem tail_value (m : (ℓ : Loc nD τ sig) → Buf (Elt Ideal) ℓ) (q : Fin 64 → Fin 512 → ℝ) (a : Fin 200000 → Fin 512 → ℝ)
    (hq : ∀ c : Dev nD, m ((c.tc : Thread nD τ).loc main_arg0) = arr2 q)
    (ha : ∀ c : Dev nD, m ((c.tc : Thread nD τ).loc main_arg1) = arr2 a) (c : Dev nD) :
    Pipeline.afterTail₀ cfgs (dats m) 0 (V0 m) [hostOps1] c main_v21 = arr2 (out q a) := by
  rw [tail_eq m c]
  refine Spec.ext2 _ _ fun b d => ?_
  have hne : accDen q a 19 b + accDen q a 39 b ≠ 0 := by
    rw [accDen_total q a b]; exact ne_of_gt (den_pos q a b)
  refine (tail_apply (fun (p : Fin 2) (b : Fin 64) (d : Fin 512) => accNum q a (p.val * 20 + 19) b d)
    (fun (p : Fin 2) (b : Fin 64) (_ : Fin 1) => accDen q a (p.val * 20 + 19) b) _ _
    (Final.final_num m q a hq ha c) (Final.final_den m q a hq ha c) b d hne).trans ?_
  rw [arr2_ix2]
  exact congrArg (fun x : ℝ => (x : EReal)) (acc_quotient q a b d)

/-- Every weakly fair execution from a memory whose arguments hold the reals `q`, `a` terminates with the result at
    `out q a` and the arguments unchanged. -/
theorem run (m : (ℓ : Loc nD τ sig) → Buf (Elt Ideal) ℓ) (ρ : Dev nD → PrngReg) (q : Fin 64 → Fin 512 → ℝ) (a : Fin 200000 → Fin 512 → ℝ) (hq : ∀ c : Dev nD, m ((c.tc : Thread nD τ).loc main_arg0) = arr2 q) (ha : ∀ c : Dev nD, m ((c.tc : Thread nD τ).loc main_arg1) = arr2 a) :
    θ_run (defs (F := Ideal)) (onTc (τ := τ) (main (F := Ideal))) ⟨m, fun _ => 0, ρ⟩ (fun r => ∀ c : Dev nD,
      r.2.mem ((c.tc : Thread nD τ).loc main_v21) = arr2 (out q a)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (Pipeline.mem_restRefs_of main_v21 (by decide) (by decide))).trans (tail_value m q a hq ha c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.KernelIdeal.RealRun

end
-- ==== Proof.RefStages.lean ====
/-
  The reference's host program on real inputs, up to the softmin exponents and their row maxima: the exponents are
  `expo q a`, and each row's maximum is some real number (which one does not matter downstream).
-/
import proofs.«421213_j39702677684486_3_alg».proof.Proof.Gen.ReferenceIdeal.Run
import proofs.«421213_j39702677684486_3_alg».proof.Proof.Gen.ReferenceIdeal.Read
import proofs.«421213_j39702677684486_3_alg».proof.Proof.Spec
import proofs.«421213_j39702677684486_3_alg».proof.Proof.IdealReal

noncomputable section

open scoped BigOperators
open Idealize.ShloMosaic Idealize.ShloMosaic.TcCoe Idealize.SL.Sem Idealize.ShloMosaic.ValueIdx

namespace Cert.ReferenceIdeal.Stages

open Cert.ReferenceIdeal Cert.ReferenceIdeal.Gen Cert.ReferenceIdeal.Read Cert.Spec Cert.IdealReal

/-- The sum of squares of a query row. -/
private theorem sumsq_q (q : Fin 64 → Fin 512 → ℝ) (b : Fin 64) :
    val_main_call0_v1 (F := Ideal) (arr2 q) (ix1 b) = ((∑ k, q b k * q b k : ℝ) : EReal) := by
  rw [val_main_call0_v1_apply]
  have h0 : (val_main_call0_cst (F := Ideal)) (Shape.Idx.first h_S_) = ((0 : ℝ) : EReal) := ofBits_zero
  rw [h0, ← coe_sum, EReal.coe_zero, zero_add]
  refine Finset.sum_congr rfl fun k _ => ?_
  show ((q b k : ℝ) : EReal) * ((q b k : ℝ) : EReal) = _
  rw [EReal.coe_mul]

/-- The clamped norm of a query row. -/
private theorem norm_q (q : Fin 64 → Fin 512 → ℝ) (b : Fin 64) (z : Fin 1) :
    val_main_v2 (F := Ideal) (arr2 q) (ix2 b z) = ((max (Real.sqrt (∑ k, q b k * q b k)) eps : ℝ) : EReal) := by
  rw [val_main_v2_apply, val_main_v0_apply, val_main_call0_v2_apply, val_main_v1_apply, val_main_cst_apply]
  have hi : idx_main_call0_v2 (ix2 b z) = ix1 b :=
    funext fun a => Fin.ext (by match a with | ⟨0, _⟩ => rfl)
  rw [hi, sumsq_q]
  simp only [Ideal.maximumf_def, Ideal.hostUnary_sqrt_def, Ideal.ofBits_def]
  rw [sqrt_coe _ (Finset.sum_nonneg fun k _ => mul_self_nonneg _), ofBits_eps, max_coe]

/-- The query rows over their clamped norms. -/
private theorem qn_stage (q : Fin 64 → Fin 512 → ℝ) :
    val_main_v4 (F := Ideal) (arr2 q) = arr2 (qn q) := by
  refine ext2 _ _ fun b d => ?_
  rw [val_main_v4_apply, val_main_v3_apply]
  have hi : idx_main_v3 (ix2 b d) = ix2 b (0 : Fin 1) :=
    funext fun a => Fin.ext (by match a with | ⟨0, _⟩ => rfl | ⟨1, _⟩ => rfl)
  rw [hi, norm_q, arr2_ix2, arr2_ix2]
  simp only [Ideal.hostDivf_def]
  rw [div_coe _ _ (lt_of_lt_of_le eps_pos (le_max_right _ _)).ne']
  rfl

/-- The sum of squares of an address row. -/
private theorem sumsq_a (a : Fin 200000 → Fin 512 → ℝ) (j : Fin 200000) :
    val_main_call1_v1 (F := Ideal) (arr2 a) (ix1 j) = ((∑ k, a j k * a j k : ℝ) : EReal) := by
  rw [val_main_call1_v1_apply]
  have h0 : (val_main_call1_cst (F := Ideal)) (Shape.Idx.first h_S_) = ((0 : ℝ) : EReal) := ofBits_zero
  rw [h0, ← coe_sum, EReal.coe_zero, zero_add]
  refine Finset.sum_congr rfl fun k _ => ?_
  show ((a j k : ℝ) : EReal) * ((a j k : ℝ) : EReal) = _
  rw [EReal.coe_mul]

/-- The clamped norm of an address row. -/
private theorem norm_a (a : Fin 200000 → Fin 512 → ℝ) (j : Fin 200000) (z : Fin 1) :
    val_main_v7 (F := Ideal) (arr2 a) (ix2 j z) = ((rown a j : ℝ) : EReal) := by
  rw [val_main_v7_apply, val_main_v5_apply, val_main_call1_v2_apply, val_main_v6_apply, val_main_cst_0_apply]
  have hi : idx_main_call1_v2 (ix2 j z) = ix1 j :=
    funext fun c => Fin.ext (by match c with | ⟨0, _⟩ => rfl)
  rw [hi, sumsq_a]
  simp only [Ideal.maximumf_def, Ideal.hostUnary_sqrt_def, Ideal.ofBits_def]
  rw [sqrt_coe _ (Finset.sum_nonneg fun k _ => mul_self_nonneg _), ofBits_eps, max_coe]
  rfl

/-- The clamped norm is positive. -/
private theorem rown_pos (a : Fin 200000 → Fin 512 → ℝ) (j : Fin 200000) : 0 < rown a j :=
  lt_of_lt_of_le eps_pos (le_max_right _ _)

/-- The address rows over their clamped norms. -/
private theorem an_stage (a : Fin 200000 → Fin 512 → ℝ) :
    val_main_v9 (F := Ideal) (arr2 a) = arr2 (fun j k => a j k / rown a j) := by
  refine ext2 _ _ fun j d => ?_
  rw [val_main_v9_apply, val_main_v8_apply]
  have hi : idx_main_v8 (ix2 j d) = ix2 j (0 : Fin 1) :=
    funext fun c => Fin.ext (by match c with | ⟨0, _⟩ => rfl | ⟨1, _⟩ => rfl)
  rw [hi, norm_a, arr2_ix2, arr2_ix2]
  simp only [Ideal.hostDivf_def]
  rw [div_coe _ _ (rown_pos a j).ne']

/-- The cosine similarities. -/
private theorem sim_stage (q : Fin 64 → Fin 512 → ℝ) (a : Fin 200000 → Fin 512 → ℝ) :
    val_main_v10 (F := Ideal) (arr2 q) (arr2 a) = arr2 (sim q a) := by
  refine ext2 _ _ fun b j => ?_
  rw [val_main_v10_apply, qn_stage, an_stage, arr2_ix2]
  unfold sim
  rw [← coe_sum]
  refine Finset.sum_congr rfl fun k _ => ?_
  have hl : lidx_main_v10 (ix2 b j) k = ix2 b k :=
    funext fun c => Fin.ext (by match c with | ⟨0, _⟩ => rfl | ⟨1, _⟩ => rfl)
  have hr : ridx_main_v10 (ix2 b j) k = ix2 j k :=
    funext fun c => Fin.ext (by match c with | ⟨0, _⟩ => rfl | ⟨1, _⟩ => rfl)
  rw [hl, hr, arr2_ix2, arr2_ix2, EReal.coe_mul]

/-- The exponents. -/
theorem expo_stage (q : Fin 64 → Fin 512 → ℝ) (a : Fin 200000 → Fin 512 → ℝ) :
    val_main_v15 (F := Ideal) (arr2 q) (arr2 a) = arr2 (expo q a) := by
  refine ext2 _ _ fun b j => ?_
  rw [val_main_v15_apply, val_main_v13_apply, val_main_v12_apply, val_main_v11_apply, val_main_cst_1_apply,
    val_main_v14_apply, val_main_cst_2_apply, sim_stage, arr2_ix2, arr2_ix2]
  simp only [Ideal.hostDivf_def, Ideal.hostNegf_def, Ideal.negf_def, Ideal.subf_def, Ideal.ofBits_def]
  rw [ofBits_one, ofBits_tempr, ← EReal.coe_sub, ← EReal.coe_neg, div_coe _ _ tempr_pos.ne']
  rfl

/-- A fold of the maximum from the bottom element over finitely many real numbers is the bottom element or a real number. -/
private theorem fold_max_coe {ι : Type} (g : ι → ℝ) (s : Finset ι) :
    s.fold max (⊥ : EReal) (fun k => ((g k : ℝ) : EReal)) = ⊥ ∨
      ∃ M : ℝ, s.fold max (⊥ : EReal) (fun k => ((g k : ℝ) : EReal)) = ((M : ℝ) : EReal) := by
  classical
  induction s using Finset.induction_on with
  | empty => exact Or.inl Finset.fold_empty
  | insert x t hx ih =>
    rw [Finset.fold_insert hx]
    rcases ih with h | ⟨M, h⟩
    · exact Or.inr ⟨g x, by rw [h, max_eq_left bot_le]⟩
    · exact Or.inr ⟨max (g x) M, by rw [h, max_coe]⟩

/-- Over a nonempty set the fold is a real number. -/
private theorem fold_max_coe_of_nonempty {ι : Type} (g : ι → ℝ) (s : Finset ι) (hs : s.Nonempty) :
    ∃ M : ℝ, s.fold max (⊥ : EReal) (fun k => ((g k : ℝ) : EReal)) = ((M : ℝ) : EReal) := by
  classical
  obtain ⟨x, hx⟩ := hs
  rw [← Finset.insert_erase hx, Finset.fold_insert (Finset.notMem_erase x s)]
  rcases fold_max_coe g (s.erase x) with h | ⟨M, h⟩
  · exact ⟨g x, by rw [h, max_eq_left bot_le]⟩
  · exact ⟨max (g x) M, by rw [h, max_coe]⟩

/-- The maximum of a row of exponents is a real number. -/
private theorem rowmax_real (q : Fin 64 → Fin 512 → ℝ) (a : Fin 200000 → Fin 512 → ℝ) (b : Fin 64) :
    ∃ M : ℝ, val_main_v18 (F := Ideal) (arr2 q) (arr2 a) (ix1 b) = ((M : ℝ) : EReal) := by
  have hR : S64x200000.Reduces [1] S64 := by decide
  rw [val_main_v18_apply, val_main_v17_apply, val_main_cst_4_apply]
  unfold val_main_v16
  rw [expo_stage, Host.reduce_eq_fold_single FloatOps.maximumf _ _ reducesTo_S64x200000_S64_d1 hR h_S_]
  have hne : (Finset.univ : Finset (Fin (S64x200000.size 1))).Nonempty := ⟨⟨0, by decide⟩, Finset.mem_univ _⟩
  obtain ⟨M, hM⟩ := fold_max_coe_of_nonempty
    (fun k : Fin (S64x200000.size 1) => expo q a ⟨(hR.lift (ix1 b) k 0).val, (hR.lift (ix1 b) k 0).isLt⟩
      ⟨(hR.lift (ix1 b) k 1).val, (hR.lift (ix1 b) k 1).isLt⟩) Finset.univ hne
  refine ⟨M, ?_⟩
  have h3 : (val_main_cst_3 (F := Ideal)) (Shape.Idx.first h_S_) = (⊥ : EReal) := ofBits_neg_inf
  rw [h3]
  simp only [Ideal.ofBits_def]
  rw [ofBits_neg_inf]
  refine Eq.trans ?_ hM
  exact max_eq_right bot_le

/-- The row maxima are real numbers. -/
theorem max_stage (q : Fin 64 → Fin 512 → ℝ) (a : Fin 200000 → Fin 512 → ℝ) :
    ∃ M : Fin 64 → ℝ, val_main_v18 (F := Ideal) (arr2 q) (arr2 a) = arr1 M := by
  choose M hM using rowmax_real q a
  exact ⟨M, ext1 _ _ fun b => (hM b).trans (arr1_ix1 M b).symm⟩

end Cert.ReferenceIdeal.Stages

end
-- ==== Proof.RefRun.lean ====
/-
  The reference's run at the ideal instance on real inputs: a softmax of the exponents shifted by the row maxima,
  applied to the address rows — the weighted mean `out`.
-/
import proofs.«421213_j39702677684486_3_alg».proof.Proof.Gen.ReferenceIdeal.Run
import proofs.«421213_j39702677684486_3_alg».proof.Proof.Gen.ReferenceIdeal.Read
import proofs.«421213_j39702677684486_3_alg».proof.Proof.Spec
import proofs.«421213_j39702677684486_3_alg».proof.Proof.IdealReal
import proofs.«421213_j39702677684486_3_alg».proof.Proof.SpecLemmas
import proofs.«421213_j39702677684486_3_alg».proof.Proof.RefStages

noncomputable section

open scoped BigOperators
open Idealize.ShloMosaic Idealize.ShloMosaic.TcCoe Idealize.SL.Sem Idealize.ShloMosaic.ValueIdx

namespace Cert.ReferenceIdeal.RealRun

open Cert.ReferenceIdeal Cert.ReferenceIdeal.Gen Cert.ReferenceIdeal.Read Cert.Spec Cert.IdealReal

/-! ## The stages after the row maxima, read at explicit coordinates

Throughout, `M b` is the real number that row `b`'s maximum stage holds. -/

section
variable (q : Fin 64 → Fin 512 → ℝ) (a : Fin 200000 → Fin 512 → ℝ) (M : Fin 64 → ℝ)

/-- The sum of a row's shifted exponentials is positive. -/
private theorem sumExp_pos (b : Fin 64) : 0 < ∑ j : Fin 200000, Real.exp (expo q a b j - M b) :=
  Finset.sum_pos (fun j _ => Real.exp_pos _) ⟨⟨0, by norm_num⟩, Finset.mem_univ _⟩

/-- The row maximum spread along the rows: entry `(b, j)` is `M b`. -/
private theorem v20_at (hM : val_main_v18 (F := Ideal) (arr2 q) (arr2 a) = arr1 M) (b : Fin 64) (j : Fin 200000) :
    val_main_v20 (F := Ideal) (arr2 q) (arr2 a) (ix2 b j) = ((M b : ℝ) : EReal) := by
  rw [val_main_v20_apply, val_main_v19_apply, hM]
  rfl

/-- The shifted exponent: entry `(b, j)` is `expo q a b j - M b`. -/
private theorem v21_at (hM : val_main_v18 (F := Ideal) (arr2 q) (arr2 a) = arr1 M) (b : Fin 64) (j : Fin 200000) :
    val_main_v21 (F := Ideal) (arr2 q) (arr2 a) (ix2 b j) = ((expo q a b j - M b : ℝ) : EReal) := by
  rw [val_main_v21_apply, Cert.ReferenceIdeal.Stages.expo_stage, v20_at q a M hM, arr2_ix2, Ideal.subf_def,
    ← EReal.coe_sub]

/-- Its exponential. -/
private theorem v22_at (hM : val_main_v18 (F := Ideal) (arr2 q) (arr2 a) = arr1 M) (b : Fin 64) (j : Fin 200000) :
    val_main_v22 (F := Ideal) (arr2 q) (arr2 a) (ix2 b j) = ((Real.exp (expo q a b j - M b) : ℝ) : EReal) := by
  rw [val_main_v22_apply, v21_at q a M hM, Ideal.hostUnary_exp_def, Ideal.exp_coe]

/-- The row sums of the exponentials. -/
private theorem v23_at (hM : val_main_v18 (F := Ideal) (arr2 q) (arr2 a) = arr1 M) (b : Fin 64) :
    val_main_v23 (F := Ideal) (arr2 q) (arr2 a) (ix1 b)
      = ((∑ j : Fin 200000, Real.exp (expo q a b j - M b) : ℝ) : EReal) := by
  rw [val_main_v23_apply, val_main_cst_5_apply]
  have h : ∀ k : Fin 200000, val_main_v22 (F := Ideal) (arr2 q) (arr2 a) (idx_main_v23 (ix1 b) k)
      = ((Real.exp (expo q a b k - M b) : ℝ) : EReal) := fun k => by
    have e : idx_main_v23 (ix1 b) k = ix2 b k := funext fun d => by
      match d with
      | ⟨0, _⟩ => rfl
      | ⟨1, _⟩ => rfl
    rw [e, v22_at q a M hM]
  rw [Finset.sum_congr rfl (fun k _ => h k), coe_sum]
  show Ideal.ofBits .f32 0x00000000#32 + _ = _
  rw [ofBits_zero, ← EReal.coe_add, zero_add]

/-- The row sum spread along the rows. -/
private theorem v25_at (hM : val_main_v18 (F := Ideal) (arr2 q) (arr2 a) = arr1 M) (b : Fin 64) (j : Fin 200000) :
    val_main_v25 (F := Ideal) (arr2 q) (arr2 a) (ix2 b j)
      = ((∑ k : Fin 200000, Real.exp (expo q a b k - M b) : ℝ) : EReal) := by
  rw [val_main_v25_apply, val_main_v24_apply]
  have e : idx_main_v24 (idx_main_v25 (ix2 b j)) = ix1 b := funext fun d => by
    match d with
    | ⟨0, _⟩ => rfl
  rw [e, v23_at q a M hM]

/-- The normalised weight. -/
private theorem v26_at (hM : val_main_v18 (F := Ideal) (arr2 q) (arr2 a) = arr1 M) (b : Fin 64) (j : Fin 200000) :
    val_main_v26 (F := Ideal) (arr2 q) (arr2 a) (ix2 b j)
      = ((Real.exp (expo q a b j - M b) / ∑ k : Fin 200000, Real.exp (expo q a b k - M b) : ℝ) : EReal) := by
  rw [val_main_v26_apply, v22_at q a M hM, v25_at q a M hM, Ideal.hostDivf_def,
    div_coe _ _ (ne_of_gt (sumExp_pos q a M b))]

/-- The weighted sum of the address rows: the shifted softmax applied to them. -/
private theorem v27_at (hM : val_main_v18 (F := Ideal) (arr2 q) (arr2 a) = arr1 M) (b : Fin 64) (d : Fin 512) :
    val_main_v27 (F := Ideal) (arr2 q) (arr2 a) (ix2 b d) = ((shifted q a M b d : ℝ) : EReal) := by
  rw [val_main_v27_apply]
  have h : ∀ k : Fin 200000,
      val_main_v26 (F := Ideal) (arr2 q) (arr2 a) (lidx_main_v27 (ix2 b d) k) * arr2 a (ridx_main_v27 (ix2 b d) k)
      = (((Real.exp (expo q a b k - M b) / ∑ k' : Fin 200000, Real.exp (expo q a b k' - M b)) * a k d : ℝ) : EReal) :=
    fun k => by
      have el : lidx_main_v27 (ix2 b d) k = ix2 b k := funext fun c => by
        match c with
        | ⟨0, _⟩ => rfl
        | ⟨1, _⟩ => rfl
      have er : ridx_main_v27 (ix2 b d) k = ix2 k d := funext fun c => by
        match c with
        | ⟨0, _⟩ => rfl
        | ⟨1, _⟩ => rfl
      rw [el, er, v26_at q a M hM, arr2_ix2, ← EReal.coe_mul]
  rw [Finset.sum_congr rfl (fun k _ => h k), coe_sum]
  rfl

end

/-- The result stage on real inputs. -/
theorem result_stage (q : Fin 64 → Fin 512 → ℝ) (a : Fin 200000 → Fin 512 → ℝ) :
    val_main_v27 (F := Ideal) (arr2 q) (arr2 a) = arr2 (out q a) := by
  obtain ⟨M, hM⟩ := Cert.ReferenceIdeal.Stages.max_stage q a
  refine Spec.ext2 _ _ (fun b d => ?_)
  rw [v27_at q a M hM, arr2_ix2, shifted_eq_out]

/-- Every weakly fair execution from a memory whose arguments hold the reals `q`, `a` terminates with the result at
    `out q a` and the arguments unchanged. -/
theorem run (m : (ℓ : Loc nD τ sig) → Buf (Elt Ideal) ℓ) (ρ : Dev nD → PrngReg) (q : Fin 64 → Fin 512 → ℝ) (a : Fin 200000 → Fin 512 → ℝ)
    (hq : ∀ c : Dev nD, m ((c.tc : Thread nD τ).loc main_arg0) = arr2 q)
    (ha : ∀ c : Dev nD, m ((c.tc : Thread nD τ).loc main_arg1) = arr2 a) :
    θ_run (defs (F := Ideal)) (onTc (τ := τ) (main (F := Ideal))) ⟨m, fun _ => 0, ρ⟩ (fun r => ∀ c : Dev nD,
      r.2.mem ((c.tc : Thread nD τ).loc main_v27) = arr2 (out q a)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, (h c).2.1, (h c).2.2⟩) (Cert.ReferenceIdeal.Value.run (F := Ideal) m ρ)
  rw [(h c).1, val_main_v27_eq, hq c, ha c, result_stage]

end Cert.ReferenceIdeal.RealRun

end
-- ==== Proof.lean ====
/-
  The kernel streams 200000 address rows through two partitions of twenty 5000-row tiles, accumulating for each of 64
  query rows the softmin-weighted sum of the address rows and the sum of the weights, and divides at the end; the
  reference normalises both sides, takes one cosine-similarity matrix, a softmax of `-(1 - sim) / T` and one matrix
  product. Over the reals both are the weighted mean `Cert.Spec.out`:

    * a reciprocal square root of a squared norm clamped at `eps²` is the reciprocal of the norm clamped at `eps`
      (the kernel's clamp constant is named the square of the reference's);
    * scaling the inner product afterwards is the inner product with the scaled row (finite sums distribute);
    * the clamp of the similarity at 1 is vacuous (Cauchy–Schwarz, both rows having norm at most 1);
    * a product with the named reciprocal of the temperature is the reference's quotient by it;
    * the softmax's shift by the row maximum cancels between numerator and denominator;
    * the forty tiles are the 200000 rows, so the partitions' partial sums add to the whole sums.

  The precondition (every input finite) is what makes these laws available: it puts every intermediate in the reals.
-/
import proofs.«421213_j39702677684486_3_alg».proof.Defs
import proofs.«421213_j39702677684486_3_alg».proof.Proof.Gen.Kernel
import proofs.«421213_j39702677684486_3_alg».proof.Proof.Gen.Kernel.Frame
import proofs.«421213_j39702677684486_3_alg».proof.Proof.Gen.KernelIdeal
import proofs.«421213_j39702677684486_3_alg».proof.Proof.Gen.KernelIdeal.Frame
import proofs.«421213_j39702677684486_3_alg».proof.Proof.Gen.ReferenceIdeal
import proofs.«421213_j39702677684486_3_alg».proof.Proof.Gen.ReferenceIdeal.Run
import proofs.«421213_j39702677684486_3_alg».proof.Proof.Gen.Pre_finite_inputs
import proofs.«421213_j39702677684486_3_alg».proof.Proof.Spec
import proofs.«421213_j39702677684486_3_alg».proof.Proof.Finite
import proofs.«421213_j39702677684486_3_alg».proof.Proof.KernelRun
import proofs.«421213_j39702677684486_3_alg».proof.Proof.RefRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two named constants denote what the certificate's table says. -/
theorem preserves : Cert.preserves_Kernel_KernelIdeal :=
  ⟨IdealRules.named_const.statement Cert.KernelIdeal.κ "eps_squared" .f32 0x24E69595#32
      ((126765058482001 / 1267650600228229401496703205376 : ℝ) : EReal) rfl,
   IdealRules.named_const.statement Cert.KernelIdeal.κ "inv_temperature" .f32 0x41200000#32
      ((134217728 / 13421773 : ℝ) : EReal) rfl⟩

/-- On finite inputs both programs end at the weighted mean of the address rows. -/
theorem algebraic : Cert.algebraic_KernelIdeal_ReferenceIdeal := by
  intro m ρ m' ρ' hpre hagree
  obtain ⟨q, a, hq, ha⟩ := Cert.Finite.reals_of_pre m hpre
  refine ⟨fun _ => Cert.Spec.arr2 (Cert.Spec.out q a), Cert.KernelIdeal.RealRun.run m ρ q a hq ha, ?_⟩
  exact Cert.ReferenceIdeal.RealRun.run m' ρ' q a (fun c => (hagree c).1.trans (hq c)) (fun c => (hagree c).2.trans (ha c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
